-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x32x16 : Shape := ⟨3, ![512, 32, 16]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x32x16 : S_.BroadcastsInDim S512x32x16 (![] : Fin 0 → Fin S512x32x16.rank)
  reducesTo_S512x32x16_S_d0_1_2 : S512x32x16.ReducesTo [0, 1, 2] S_

variable [Facts]

def fn {F : FTy → Type} [FloatOps F] (main_arg0 : FVec F S512x512 .f32) (main_arg1 : FVec F S512x32x16 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x32x16 .f32 := Host.absf main_arg1
  let main_cst_0 : FVec F S_ .f32 := constant S_ .f32 0x7F800000#32
  let main_v5 : FVec F S512x32x16 .f32 := broadcastInDim S512x32x16 ![] bcast_S_S512x32x16 main_cst_0
  let main_v6 : IVec S512x32x16 1 := cmpf .olt main_v4 main_v5
  let main_c_1 : IVec S_ 1 := constantI S_ 1 1#1
  let main_v7 : IVec S_ 1 := (fun x v => Host.reduce IntOp.andi x v reducesTo_S512x32x16_S_d0_1_2 h_S_) main_v6 main_c_1
  let main_v8 : IVec S_ 1 := andi main_v3 main_v7
  main_v8
-- ==== Kernel.lean ====
abbrev S512x512 : Shape := ⟨2, ![512, 512]⟩
abbrev S512x32x16 : Shape := ⟨3, ![512, 32, 16]⟩
abbrev S32x16x512 : Shape := ⟨3, ![32, 16, 512]⟩
abbrev S32x512 : Shape := ⟨2, ![32, 512]⟩
abbrev S32x16x256 : Shape := ⟨3, ![32, 16, 256]⟩
abbrev S32x16x128 : Shape := ⟨3, ![32, 16, 128]⟩
abbrev S32x256 : Shape := ⟨2, ![32, 256]⟩
abbrev S32x256x128 : Shape := ⟨3, ![32, 256, 128]⟩
abbrev S32x1x256 : Shape := ⟨3, ![32, 1, 256]⟩
abbrev S32x1x128 : Shape := ⟨3, ![32, 1, 128]⟩
abbrev S32x128 : Shape := ⟨2, ![32, 128]⟩
abbrev S32x256x1 : Shape := ⟨3, ![32, 256, 1]⟩
abbrev S512x32 : Shape := ⟨2, ![512, 32]⟩
abbrev S512x544 : Shape := ⟨2, ![512, 544]⟩

abbrev nBuf : Space → Nat
  | .hbm => 11
  | .vmem => 10
  | .smem => 0
  | _ => 0

abbrev bufTy : (tb : Table) → Fin (tcTables nBuf tb) → BufTy
  | .hbm, ⟨0, _⟩ => ⟨S512x512, .f32⟩
  | .hbm, ⟨1, _⟩ => ⟨S512x32x16, .f32⟩
  | .hbm, ⟨2, _⟩ => ⟨S512x512, .f32⟩
  | .hbm, ⟨3, _⟩ => ⟨S512x512, .bf16⟩
  | .hbm, ⟨4, _⟩ => ⟨S512x512, .bf16⟩
  | .hbm, ⟨5, _⟩ => ⟨S512x512, .f32⟩
  | .hbm, ⟨6, _⟩ => ⟨S512x32x16, .f32⟩
  | .hbm, ⟨7, _⟩ => ⟨S32x16x512, .f32⟩
  | .hbm, ⟨8, _⟩ => ⟨S32x512, .f32⟩
  | .hbm, ⟨9, _⟩ => ⟨S512x32, .f32⟩
  | .hbm, ⟨10, _⟩ => ⟨S512x544, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S32x16x256, .f32⟩
  | .local _ .vmem, ⟨4, _⟩ => ⟨S32x16x256, .f32⟩
  | .local _ .vmem, ⟨5, _⟩ => ⟨S32x16x128, .f32⟩
  | .local _ .vmem, ⟨6, _⟩ => ⟨S32x16x128, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![2, 4], ![false, false]⟩

def k1_cond2 (i : grid1.Coords) : BitVec 1 :=
  let arg1 : BitVec 32 := BitVec.ofNat 32 (i 1).val
  let c3_i32 : BitVec 32 := 3#32
  let v193 : BitVec 1 := Scalar.cmpi .eq arg1 c3_i32
  let v194 : BitVec 32 := Scalar.extui v193
  let c0_i32_12 : BitVec 32 := 0#32
  let v195 : BitVec 1 := Scalar.cmpi .ne v194 c0_i32_12
  v195

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S32x16x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S32x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S512x32x16_S512x512 : S512x32x16.ShapeCasts S512x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x512_S512x32x16 : S512x512.ShapeCasts S512x32x16
  transposes_S512x32x16_S32x16x512_1_2_0 : S512x32x16.Transposes [1, 2, 0] S32x16x512
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x16x256_S32x16x256_0_0_0 : ∀ a, (![0, 0, 0] : Fin 3 → Nat) a + S32x16x256.size a ≤ S32x16x256.size a
  h_S32x16x256 : 0 < S32x16x256.numel
  shapeCasts_S32x16x256_S32x16x256 : S32x16x256.ShapeCasts S32x16x256
  inb_S32x16x128_S32x16x128_0_0_0 : ∀ a, (![0, 0, 0] : Fin 3 → Nat) a + S32x16x128.size a ≤ S32x16x128.size a
  h_S32x16x128 : 0 < S32x16x128.numel
  shapeCasts_S32x16x128_S32x16x128 : S32x16x128.ShapeCasts S32x16x128
  slices_S32x16x256_o0_0_0_S32x1x256 : S32x16x256.Slices ![0, 0, 0] S32x1x256
  shapeCasts_S32x1x256_S32x256 : S32x1x256.ShapeCasts S32x256
  slices_S32x16x128_o0_0_0_S32x1x128 : S32x16x128.Slices ![0, 0, 0] S32x1x128
  shapeCasts_S32x1x128_S32x128 : S32x1x128.ShapeCasts S32x128
  shapeCasts_S32x256_S32x256x1 : S32x256.ShapeCasts S32x256x1
  shapeCasts_S32x128_S32x1x128 : S32x128.ShapeCasts S32x1x128
  broadcasts_S32x256x1_S32x256x128 : S32x256x1.Broadcasts S32x256x128
  broadcasts_S32x1x128_S32x256x128 : S32x1x128.Broadcasts S32x256x128
  slices_S32x16x256_o0_1_0_S32x1x256 : S32x16x256.Slices ![0, 1, 0] S32x1x256
  slices_S32x16x128_o0_1_0_S32x1x128 : S32x16x128.Slices ![0, 1, 0] S32x1x128
  slices_S32x16x256_o0_2_0_S32x1x256 : S32x16x256.Slices ![0, 2, 0] S32x1x256
  slices_S32x16x128_o0_2_0_S32x1x128 : S32x16x128.Slices ![0, 2, 0] S32x1x128
  slices_S32x16x256_o0_3_0_S32x1x256 : S32x16x256.Slices ![0, 3, 0] S32x1x256
  slices_S32x16x128_o0_3_0_S32x1x128 : S32x16x128.Slices ![0, 3, 0] S32x1x128
  slices_S32x16x256_o0_4_0_S32x1x256 : S32x16x256.Slices ![0, 4, 0] S32x1x256
  slices_S32x16x128_o0_4_0_S32x1x128 : S32x16x128.Slices ![0, 4, 0] S32x1x128
  slices_S32x16x256_o0_5_0_S32x1x256 : S32x16x256.Slices ![0, 5, 0] S32x1x256
  slices_S32x16x128_o0_5_0_S32x1x128 : S32x16x128.Slices ![0, 5, 0] S32x1x128
  slices_S32x16x256_o0_6_0_S32x1x256 : S32x16x256.Slices ![0, 6, 0] S32x1x256
  slices_S32x16x128_o0_6_0_S32x1x128 : S32x16x128.Slices ![0, 6, 0] S32x1x128
  slices_S32x16x256_o0_7_0_S32x1x256 : S32x16x256.Slices ![0, 7, 0] S32x1x256
  slices_S32x16x128_o0_7_0_S32x1x128 : S32x16x128.Slices ![0, 7, 0] S32x1x128
  slices_S32x16x256_o0_8_0_S32x1x256 : S32x16x256.Slices ![0, 8, 0] S32x1x256
  slices_S32x16x128_o0_8_0_S32x1x128 : S32x16x128.Slices ![0, 8, 0] S32x1x128
  slices_S32x16x256_o0_9_0_S32x1x256 : S32x16x256.Slices ![0, 9, 0] S32x1x256
  slices_S32x16x128_o0_9_0_S32x1x128 : S32x16x128.Slices ![0, 9, 0] S32x1x128
  slices_S32x16x256_o0_10_0_S32x1x256 : S32x16x256.Slices ![0, 10, 0] S32x1x256
  slices_S32x16x128_o0_10_0_S32x1x128 : S32x16x128.Slices ![0, 10, 0] S32x1x128
  slices_S32x16x256_o0_11_0_S32x1x256 : S32x16x256.Slices ![0, 11, 0] S32x1x256
  slices_S32x16x128_o0_11_0_S32x1x128 : S32x16x128.Slices ![0, 11, 0] S32x1x128
  slices_S32x16x256_o0_12_0_S32x1x256 : S32x16x256.Slices ![0, 12, 0] S32x1x256
  slices_S32x16x128_o0_12_0_S32x1x128 : S32x16x128.Slices ![0, 12, 0] S32x1x128
  slices_S32x16x256_o0_13_0_S32x1x256 : S32x16x256.Slices ![0, 13, 0] S32x1x256
  slices_S32x16x128_o0_13_0_S32x1x128 : S32x16x128.Slices ![0, 13, 0] S32x1x128
  slices_S32x16x256_o0_14_0_S32x1x256 : S32x16x256.Slices ![0, 14, 0] S32x1x256
  slices_S32x16x128_o0_14_0_S32x1x128 : S32x16x128.Slices ![0, 14, 0] S32x1x128
  slices_S32x16x256_o0_15_0_S32x1x256 : S32x16x256.Slices ![0, 15, 0] S32x1x256
  slices_S32x16x128_o0_15_0_S32x1x128 : S32x16x128.Slices ![0, 15, 0] S32x1x128
  reduces_S32x256x128_S32x256 : S32x256x128.Reduces [2] S32x256
  transposes_S32x512_S512x32_1_0 : S32x512.Transposes [1, 0] S512x32
  concatenates_S512x512_S512x32_S512x544_d1 : Shape.Concatenates [S512x512, S512x32] S512x544 1
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .bf16 = 32 ∨ (Rect.block (s := S512x512) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x16x256.size a ≤ S32x16x512.size a
  hwx1_0 : ∀ i : grid1.Coords, EltTy.bits .f32 = 32 ∨ (Rect.block (s := S32x16x512) S32x16x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x16x128.size a ≤ S32x16x512.size a
  hwx1_1 : ∀ i : grid1.Coords, EltTy.bits .f32 = 32 ∨ (Rect.block (s := S32x16x512) S32x16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x256.size a ≤ S32x512.size a
  hwx1_2 : ∀ i : grid1.Coords, EltTy.bits .f32 = 32 ∨ (Rect.block (s := S32x512) S32x256.size (cc1_transform_2 i) (hinb1_2 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_v1) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x512.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S32x16x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S32x16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S32x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S512x512 : Shape := ⟨2, ![512, 512]⟩
abbrev S512x32x16 : Shape := ⟨3, ![512, 32, 16]⟩
abbrev S512x1x32x16 : Shape := ⟨4, ![512, 1, 32, 16]⟩
abbrev S1x512x32x16 : Shape := ⟨4, ![1, 512, 32, 16]⟩
abbrev S512x512x32x16 : Shape := ⟨4, ![512, 512, 32, 16]⟩
abbrev S_ : Shape := ⟨0, ![]⟩
abbrev S512x512x32 : Shape := ⟨3, ![512, 512, 32]⟩
abbrev S512x32 : Shape := ⟨2, ![512, 32]⟩
abbrev S512x544 : Shape := ⟨2, ![512, 544]⟩

abbrev nBuf : Space → Nat
  | .hbm => 21
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x32x16, .f32⟩
  | .hbm, ⟨2, _⟩ => ⟨S512x512, .f32⟩
  | .hbm, ⟨3, _⟩ => ⟨S512x512, .f32⟩
  | .hbm, ⟨4, _⟩ => ⟨S512x32x16, .f32⟩
  | .hbm, ⟨5, _⟩ => ⟨S512x1x32x16, .f32⟩
  | .hbm, ⟨6, _⟩ => ⟨S1x512x32x16, .f32⟩
  | .hbm, ⟨7, _⟩ => ⟨S512x512x32x16, .f32⟩
  | .hbm, ⟨8, _⟩ => ⟨S512x512x32x16, .f32⟩
  | .hbm, ⟨9, _⟩ => ⟨S512x512x32x16, .f32⟩
  | .hbm, ⟨10, _⟩ => ⟨S512x512x32x16, .f32⟩
  | .hbm, ⟨11, _⟩ => ⟨S_, .f32⟩
  | .hbm, ⟨12, _⟩ => ⟨S512x512x32, .f32⟩
  | .hbm, ⟨13, _⟩ => ⟨S512x512x32, .f32⟩
  | .hbm, ⟨14, _⟩ => ⟨S512x512x32, .f32⟩
  | .hbm, ⟨15, _⟩ => ⟨S_, .f32⟩
  | .hbm, ⟨16, _⟩ => ⟨S512x32, .f32⟩
  | .hbm, ⟨17, _⟩ => ⟨S_, .f32⟩
  | .hbm, ⟨18, _⟩ => ⟨S512x32, .f32⟩
  | .hbm, ⟨19, _⟩ => ⟨S512x32, .f32⟩
  | .hbm, ⟨20, _⟩ => ⟨S512x544, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S512x32x16_S512x512 : S512x32x16.ShapeCasts S512x512
  shapeCasts_S512x512_S512x32x16 : S512x512.ShapeCasts S512x32x16
  bcast_S512x32x16_S512x1x32x16_0_2_3 : S512x32x16.BroadcastsInDim S512x1x32x16 (![0, 2, 3] : Fin 3 → Fin S512x1x32x16.rank)
  bcast_S512x32x16_S1x512x32x16_1_2_3 : S512x32x16.BroadcastsInDim S1x512x32x16 (![1, 2, 3] : Fin 3 → Fin S1x512x32x16.rank)
  bcast_S512x1x32x16_S512x512x32x16_0_1_2_3 : S512x1x32x16.BroadcastsInDim S512x512x32x16 (![0, 1, 2, 3] : Fin 4 → Fin S512x512x32x16.rank)
  bcast_S1x512x32x16_S512x512x32x16_0_1_2_3 : S1x512x32x16.BroadcastsInDim S512x512x32x16 (![0, 1, 2, 3] : Fin 4 → Fin S512x512x32x16.rank)
  reducesTo_S512x512x32x16_S512x512x32_d3 : S512x512x32x16.ReducesTo [3] S512x512x32
  h_S_ : 0 < S_.numel
  reducesTo_S512x512x32_S512x32_d1 : S512x512x32.ReducesTo [1] S512x32
  bcast_S_S512x32 : S_.BroadcastsInDim S512x32 (![] : Fin 0 → Fin S512x32.rank)
  concatenates_S512x512_S512x32_S512x544_d1 : Shape.Concatenates [S512x512, S512x32] S512x544 1
  dot_S512x512_S512x512_S512x512_1_0_0_1_n_n_wf : DotDims.WF S512x512 S512x512 S512x512 [1] [0] [0] [1] [] []

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

class Facts : Prop extends Facts₀ where

variable [Facts]
-- ==== Proof.Kernel.Region0.lean ====
/-
  The first call of the program: the matrix product M = x · T', one grid point. Its two operands are
  fetched whole into their staging buffers, the body multiplies them into a zero accumulator and stores the
  512 × 512 product over the whole output buffer, which is written back. Stated at a parameter V, the
  contents of the core's buffers when the call is entered: what each window's block is, what the body
  leaves in the output buffer (one store covering it), the body's triple, the pipeline's proof data and
  the body obligation.
-/
import proofs.«142550_j42949672961129_1_alg».proof.Proof.Gen.Kernel.Launch
import proofs.«142550_j42949672961129_1_alg».proof.Proof.Gen.Kernel.Skeleton
import proofs.«142550_j42949672961129_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer holds its block when the body runs: it is fetched at the one point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 512 × 512 buffer. -/
abbrev rWhole0 : Rect S512x512 := Rect.unit (s := S512x512) ![0, 0] S512x512.size inb_S512x512_S512x512_0_0

/-- What the body leaves in the output buffer, from the two operand blocks: the product, stored whole. -/
def prod0 (x0 x1 : Vec F S512x512 .bf16) : Vec F S512x512 .f32 :=
  View.canon [⟨rWhole0, k0_pay1 (View.ld x0 rWhole0) (View.ld x1 rWhole0)⟩]

/-- The one store covers the buffer. -/
theorem cover0 (p0 : Vec F S512x512 .f32) (y : S512x512.Idx) :
    ∃ pc ∈ ([⟨rWhole0, p0⟩] : List (View.Piece (Elt F) S512x512 .f32)), y ∈ pc.1.set :=
  View.cover_of_tiled [⟨rWhole0, p0⟩] S512x512.size (by rfl) y

set_option maxHeartbeats 1000000 in
/-- The body on whole staging memrefs, the operands' at x0 and x1 and the output's at anything, runs to the
    continuation holding the operands' unchanged and the output's at their product. -/
theorem sound_kernel0 (c : Dev nD) (E : Set ℕ) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .f32) (harg3 : arg3.IsWhole)
    (x0 x1 : Vec F S512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The pipeline's proof data on core c: the arrays as the call finds them; after the body each operand's
    buffer at its block and the output's at the product of the two blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prod0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prod0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1Defs.lean ====
/-
  The second call of the program: for each of the 2 × 4 grid points (i, j), rows 256·i … 256·i+255 against
  rows 128·j … 128·j+127 of the transposed features. A scratch accumulator of 32 × 256 sums carries
  Σ_j' Σ_r' exp(−dist) across the four points of one i: it is reset when j = 0, added to at every point,
  and at j = 3 the output block is stored from it, less one, and written back.
  Here: the windows' blocks as the call finds them, the branch conditions decided over the grid, where the
  output window is idle, the body's arithmetic as three named functions (reset value, one point's update of
  the accumulator, the final block), and the accumulator's contents after each point by recursion.
-/
import proofs.«142550_j42949672961129_1_alg».proof.Proof.Gen.Kernel.Launch
import proofs.«142550_j42949672961129_1_alg».proof.Proof.Gen.Kernel.Skeleton
import proofs.«142550_j42949672961129_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer holds its block when the body runs, fetched at that point or not: where it is
    not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "j = 0": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "j = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from j = 3 the body stores nothing into the output window, and the block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At j = 3 it stores the block. -/
theorem liveAt1_2 : ∀ t : Fin cfg1.N, cond1_1 (grid1.coords t) → cfg1.idle 2 (grid1.coords t) = false := by decide +kernel

/-! ## The staging memrefs the body is called with, and the scratch -/

abbrev ms1_0 (t : Fin cfg1.N) : Memref sig .tc .vmem S32x16x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x16x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x256 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S32x256 .f32 := Memref.whole cc1_scratch0

/-- The call's invariant with the accumulator held as P: the first call's three staging buffers at some
    contents, then P, beside the generator register at some state. -/
def PhiWith (c : Dev nD) (P : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ P) ∗ (∃ r, prngReg c r))

/-- The class invariant is that with the accumulator at some contents. -/
theorem PhiA1_eq (c : Dev nD) :
    (Pipeline.ΦA spec1 c : sProp 𝕄) = PhiWith c (iprop(∃ d, owns (c : Thread nD τ) scM1 fullShare d)) := by
  unfold Pipeline.ΦA PhiWith; rw [scopedRest1_eq]; simp only [scM1, owns_whole]; try rfl

/-! ## The body's arithmetic -/

/-- The value the accumulator is reset to (zeros). -/
def zero1 : Vec F S32x256 .f32 := k1_pay3 (F := F)

/-- One point's update: the accumulator prev plus, per (group, row), the sum over the 128 columns of
    exp(−Σ_c |x0[·,c,row] − x1[·,c,col]|), from the two operand blocks. -/
def step1 (x0 : Vec F S32x16x256 .f32) (x1 : Vec F S32x16x128 .f32) (prev : Vec F S32x256 .f32) : Vec F S32x256 .f32 :=
  k1_pay1 (k1_pay4 x0) (k1_pay5 x1)
    (k1_pay11 (k1_pay4 x0) (k1_pay5 x1) (k1_pay9 (k1_pay4 x0) (k1_pay5 x1) (k1_pay6 x0 x1) (k1_pay7 x1) (k1_pay8 x0)) (k1_pay10 (k1_pay4 x0)))
    (k1_pay12 (k1_pay4 x0)) (k1_pay13 (k1_pay5 x1)) prev

/-- The output block from the finished accumulator: less one. -/
def fin1 (s : Vec F S32x256 .f32) : Vec F S32x256 .f32 := k1_pay2 s

/-- The accumulator after point n: reset at the points ≡ 0 (mod 4), else continued from the point before. -/
def acc1 (c : Dev nD) : (n : ℕ) → n < cfg1.N → Vec F S32x256 .f32
  | 0, h => step1 (iblk1 V c 0 ⟨0, h⟩) (iblk1 V c 1 ⟨0, h⟩) zero1
  | n + 1, h => step1 (iblk1 V c 0 ⟨n + 1, h⟩) (iblk1 V c 1 ⟨n + 1, h⟩)
      (if (n + 1) % 4 = 0 then zero1 else acc1 c n (Nat.lt_of_succ_lt h))

theorem acc1_succ (c : Dev nD) (n : ℕ) (h : n + 1 < cfg1.N) :
    acc1 V c (n + 1) h = step1 (iblk1 V c 0 ⟨n + 1, h⟩) (iblk1 V c 1 ⟨n + 1, h⟩)
      (if (n + 1) % 4 = 0 then zero1 else acc1 V c n (Nat.lt_of_succ_lt h)) := rfl

theorem acc1_reset (c : Dev nD) (t : Fin cfg1.N) (h0 : t.val % 4 = 0) :
    acc1 V c t.val t.isLt = step1 (iblk1 V c 0 t) (iblk1 V c 1 t) zero1 := by
  obtain ⟨n, hn⟩ := t
  cases n with
  | zero => rfl
  | succ n =>
    have h0' : (n + 1) % 4 = 0 := h0
    exact (acc1_succ V c n hn).trans (by rw [if_pos h0'])

theorem acc1_cont (c : Dev nD) (t : Fin cfg1.N) (h0 : ¬t.val % 4 = 0) :
    acc1 V c t.val t.isLt = step1 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 4 = 0 := h0
    exact (acc1_succ V c n hn).trans (by rw [if_neg h0']; rfl)

end Cert.Kernel.Hand

end
-- ==== Proof.Kernel.Region1Runs.lean ====
/-
  The second call's body on whole staging memrefs and the scratch accumulator, in its three control
  cases: the reset point (j = 0), a middle point (j = 1, 2) and the last point (j = 3), each run to the
  continuation with the accumulator at one update of what it held (of zero at the reset point) and, at the
  last point, the output buffer at the finished accumulator less one.
-/
import proofs.«142550_j42949672961129_1_alg».proof.Proof.Gen.Kernel.Launch
import proofs.«142550_j42949672961129_1_alg».proof.Proof.Gen.Kernel.Skeleton
import proofs.«142550_j42949672961129_1_alg».proof.Proof.Gen.Kernel.Points
import proofs.«142550_j42949672961129_1_alg».proof.Proof.Kernel.Region1Defs
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 32 × 256 buffer as one rectangle at offset zero. -/
abbrev rAcc : Rect S32x256 := Rect.unit (s := S32x256) ![0, 0] S32x256.size inb_S32x256_S32x256_0_0

theorem hzAcc : (![0, 0] : Fin S32x256.rank → Nat) = fun _ => 0 := by
  funext a; fin_cases a <;> rfl
theorem hzIn0 : (![0, 0, 0] : Fin S32x16x256.rank → Nat) = fun _ => 0 := by
  funext a; fin_cases a <;> rfl
theorem hzIn1 : (![0, 0, 0] : Fin S32x16x128.rank → Nat) = fun _ => 0 := by
  funext a; fin_cases a <;> rfl

/-- One whole-buffer store covers the buffer. -/
theorem coverAcc (p0 : Vec F S32x256 .f32) (y : S32x256.Idx) :
    ∃ pc ∈ ([⟨rAcc, p0⟩] : List (View.Piece (Elt F) S32x256 .f32)), y ∈ pc.1.set :=
  View.cover_of_tiled [⟨rAcc, p0⟩] S32x256.size (by rfl) y

/-- The whole-shape rectangle at zero offsets holds every index. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

set_option maxHeartbeats 2000000 in
/-- A middle point: neither branch is taken; the accumulator goes from s to one update of s. -/
theorem sound_kernel1_B (c : Dev nD) (E : Set ℕ) (i : grid1.Coords)
    (arg2 : Memref sig .tc .vmem S32x16x256 .f32) (harg2 : arg2.IsWhole) (arg3 : Memref sig .tc .vmem S32x16x128 .f32) (harg3 : arg3.IsWhole)
    (arg4 : Memref sig .tc .vmem S32x256 .f32) (harg4 : arg4.IsWhole) (arg5 : Memref sig .tc .vmem S32x256 .f32) (harg5 : arg5.IsWhole)
    (hc0 : ¬cond1_0 i) (hc1 : ¬cond1_1 i)
    (x0 : Vec F S32x16x256 .f32) (x1 : Vec F S32x16x128 .f32) (s : Vec F S32x256 .f32) (K : PUnit → sProp 𝕄) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (step1 x0 x1 s)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  simp only [k1_part1_eq_skeleton, k1_part2_eq_skeleton, k1_part3_eq_skeleton]
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (coverAcc _), View.canon_unit_zero hzAcc]
  simp only [View.readAt_eq_ld, View.ld_unit_zero (S := S32x256) hzAcc, View.ld_unit_zero (S := S32x16x256) hzIn0, View.ld_unit_zero (S := S32x16x128) hzIn1]
  rfl

set_option maxHeartbeats 2000000 in
/-- The reset point: the first branch is taken (the accumulator, at anything, is zeroed), the second is not. -/
theorem sound_kernel1_A (c : Dev nD) (E : Set ℕ) (i : grid1.Coords)
    (arg2 : Memref sig .tc .vmem S32x16x256 .f32) (harg2 : arg2.IsWhole) (arg3 : Memref sig .tc .vmem S32x16x128 .f32) (harg3 : arg3.IsWhole)
    (arg4 : Memref sig .tc .vmem S32x256 .f32) (harg4 : arg4.IsWhole) (arg5 : Memref sig .tc .vmem S32x256 .f32) (harg5 : arg5.IsWhole)
    (hc0 : cond1_0 i) (hc1 : ¬cond1_1 i)
    (x0 : Vec F S32x16x256 .f32) (x1 : Vec F S32x16x128 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (step1 x0 x1 zero1)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  simp only [k1_part1_eq_skeleton, k1_part2_eq_skeleton, k1_part3_eq_skeleton]
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (fun y => ⟨_, List.mem_cons_self, mem_unit_zero (S := S32x256) hzAcc inb_S32x256_S32x256_0_0 y⟩), View.canon_cons_unit_zero hzAcc]
  simp only [View.readCov_unit_zero (S := S32x256) _ hzAcc, View.readAt_eq_ld, View.ld_unit_zero (S := S32x256) hzAcc, View.ld_unit_zero (S := S32x16x256) hzIn0, View.ld_unit_zero (S := S32x16x128) hzIn1]
  rfl

set_option maxHeartbeats 2000000 in
/-- The last point: the first branch is not taken, the second is: after the update the output buffer, at
    anything, is stored from the accumulator less one. -/
theorem sound_kernel1_C (c : Dev nD) (E : Set ℕ) (i : grid1.Coords)
    (arg2 : Memref sig .tc .vmem S32x16x256 .f32) (harg2 : arg2.IsWhole) (arg3 : Memref sig .tc .vmem S32x16x128 .f32) (harg3 : arg3.IsWhole)
    (arg4 : Memref sig .tc .vmem S32x256 .f32) (harg4 : arg4.IsWhole) (arg5 : Memref sig .tc .vmem S32x256 .f32) (harg5 : arg5.IsWhole)
    (hc0 : ¬cond1_0 i) (hc1 : cond1_1 i)
    (x0 : Vec F S32x16x256 .f32) (x1 : Vec F S32x16x128 .f32) (s : Vec F S32x256 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (fin1 (step1 x0 x1 s))
            ∗ owns (c : Thread nD τ) arg5 fullShare (step1 x0 x1 s)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  simp only [k1_part1_eq_skeleton, k1_part2_eq_skeleton, k1_part3_eq_skeleton]
  unfold owns
  iintro ⟨⟨%f0, %hf0, H0⟩, ⟨%f1, %hf1, H1⟩, ⟨%d4, %f4, -, H4⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (fun y => ⟨_, List.mem_cons_self, mem_unit_zero (S := S32x256) hzAcc inb_S32x256_S32x256_0_0 y⟩), View.canon_cons_unit_zero hzAcc]
    simp only [View.readCov_unit_zero (S := S32x256) _ hzAcc, View.readAt_eq_ld, View.ld_unit_zero (S := S32x256) hzAcc, View.ld_unit_zero (S := S32x16x256) hzIn0, View.ld_unit_zero (S := S32x16x128) hzIn1]
    rfl
  iexists _; isplitr
  swap; · iexact HS
  ipureintro
  sl_unfold_run_names
  rw [View.read_writes_eq_canon _ _ _ (fun y => ⟨_, List.mem_cons_self, mem_unit_zero (S := S32x256) hzAcc inb_S32x256_S32x256_0_0 y⟩), View.canon_cons_unit_zero hzAcc]
  simp only [View.readCov_unit_zero (S := S32x256) _ hzAcc, View.readAt_eq_ld, View.ld_unit_zero (S := S32x256) hzAcc, View.ld_unit_zero (S := S32x16x256) hzIn0, View.ld_unit_zero (S := S32x16x128) hzIn1]
  rfl

end Cert.Kernel.Hand

end
-- ==== Proof.Kernel.Region1Dat.lean ====
/-
  The second call's proof data and body obligation. The invariant carries the accumulator: before the first
  point it is at anything; after point n it holds acc1 n. Each operand window's buffer holds its block at
  every point. The output window is stored only at the points with j = 3 (the finished accumulator less one,
  written back there); elsewhere it is idle and handed back as found. The three control cases are the three
  residues of the point's number modulo 4 (0; 1 or 2; 3). The operand windows both read the one transposed
  feature array, each at half of its share.
-/
import proofs.«142550_j42949672961129_1_alg».proof.Proof.Gen.Kernel.Launch
import proofs.«142550_j42949672961129_1_alg».proof.Proof.Gen.Kernel.Skeleton
import proofs.«142550_j42949672961129_1_alg».proof.Proof.Gen.Kernel.Points
import proofs.«142550_j42949672961129_1_alg».proof.Proof.Kernel.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The invariant before position n: the class's (accumulator at anything) before the first point, then the
    accumulator at what the point before left. -/
def PhiS1 (c : Dev nD) : (n : ℕ) → n ≤ cfg1.N → sProp 𝕄
  | 0, _ => Pipeline.ΦA spec1 c
  | n + 1, hn => PhiWith c (owns (c : Thread nD τ) scM1 fullShare (acc1 V c n hn))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith c (owns (c : Thread nD τ) scM1 fullShare (acc1 V c n hn)) := rfl

theorem PhiS1_pos (c : Dev nD) (n : ℕ) (h : n ≤ cfg1.N) (hz : n ≠ 0) :
    PhiS1 V c n h = PhiWith c (owns (c : Thread nD τ) scM1 fullShare (acc1 V c (n - 1) (by omega))) := by
  cases n with
  | zero => exact absurd rfl hz
  | succ n => rfl

/-- Whatever the position, the invariant holds the accumulator at some contents. -/
theorem PhiS1_some (c : Dev nD) (n : ℕ) (h : n ≤ cfg1.N) :
    PhiS1 V c n h ⊢ PhiWith c (iprop(∃ d, owns (c : Thread nD τ) scM1 fullShare d)) := by
  cases n with
  | zero => rw [PhiS1_zero V c 0 h rfl, PhiA1_eq]
  | succ n =>
    rw [PhiS1_succ]; unfold PhiWith
    iintro ⟨⟨H0, H1, H2, HS⟩, Hg⟩
    isplitr [Hg]
    · isplitl [H0]; · iexact H0
      isplitl [H1]; · iexact H1
      isplitl [H2]; · iexact H2
      iexists _; iexact HS
    · iexact Hg

/-- The proof data of the second call on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => fin1 (acc1 V c t.val t.isLt)
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = fin1 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 8 := lt_of_lt_of_eq t.isLt (show cfg1.N = 8 from N_1)
  rw [PhiS1_castSucc V c t]
  by_cases h0 : t.val % 4 = 0
  · -- the reset point
    have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1), acc1_reset V c t h0]
    have hΦ := PhiS1_some V c t.val (Nat.le_of_lt t.isLt)
    unfold PhiWith at hΦ ⊢
    iintro ⟨HΦ, Ho, ⟨%d0, H0⟩, ⟨%d1, H1⟩, H2⟩
    ihave HΦ' := hΦ $$ HΦ
    icases HΦ' with ⟨⟨Hs0, Hs1, Hs2, HS⟩, Hg⟩
    iapply (sound_kernel1_A c Set.univ _ _ _ _ _ _ _ _ _ hc0 hc1 (iblk1 V c 0 t) (iblk1 V c 1 t) _)
    isplitl [H0]; · iexact H0
    isplitl [H1]; · iexact H1
    isplitl [HS]; · iexact HS
    iintro ⟨H0, H1, HS⟩
    isplitl [Hs0 Hs1 Hs2 HS Hg]
    · isplitr [Hg]
      · isplitl [Hs0]; · iexact Hs0
        isplitl [Hs1]; · iexact Hs1
        isplitl [Hs2]; · iexact Hs2
        iexact HS
      · iexact Hg
    isplitl [Ho]; · iexact Ho
    isplitl [H0]; · iexact H0
    isplitl [H1]; · iexact H1
    iexact H2
  · have hz : t.val ≠ 0 := fun e => h0 (by rw [e])
    have hc0 : ¬cond1_0 (grid1.coords t) := fun h => h0 ((hcond1_0 t).mp h)
    rw [PhiS1_pos V c _ _ hz, acc1_cont V c t h0]
    by_cases h1 : t.val % 4 = 3
    · -- the last point
      have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_cont V c t h0]
      unfold PhiWith
      iintro ⟨⟨⟨Hs0, Hs1, Hs2, HS⟩, Hg⟩, Ho, ⟨%d0, H0⟩, ⟨%d1, H1⟩, ⟨%d2, H2⟩⟩
      iapply (sound_kernel1_C c Set.univ _ _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [Hs0 Hs1 Hs2 HS Hg]
      · isplitr [Hg]
        · isplitl [Hs0]; · iexact Hs0
          isplitl [Hs1]; · iexact Hs1
          isplitl [Hs2]; · iexact Hs2
          iexact HS
        · iexact Hg
      isplitl [Ho]; · iexact Ho
      isplitl [H0]; · iexact H0
      isplitl [H1]; · iexact H1
      iexact H2
    · -- a middle point
      have hc1 : ¬cond1_1 (grid1.coords t) := fun h => h1 ((hcond1_1 t).mp h)
      rw [Dat.leavesExact_idle (dat1 V c) 2 t (idleAt1_2 t hc1) (noFlush1_2 t hc1)]
      unfold PhiWith
      iintro ⟨⟨⟨Hs0, Hs1, Hs2, HS⟩, Hg⟩, Ho, ⟨%d0, H0⟩, ⟨%d1, H1⟩, H2⟩
      iapply (sound_kernel1_B c Set.univ _ _ _ _ _ _ _ _ _ hc0 hc1 (iblk1 V c 0 t) (iblk1 V c 1 t) _ _)
      isplitl [H0]; · iexact H0
      isplitl [H1]; · iexact H1
      isplitl [HS]; · iexact HS
      iintro ⟨H0, H1, HS⟩
      isplitl [Hs0 Hs1 Hs2 HS Hg]
      · isplitr [Hg]
        · isplitl [Hs0]; · iexact Hs0
          isplitl [Hs1]; · iexact Hs1
          isplitl [Hs2]; · iexact Hs2
          iexact HS
        · iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point; after the last point the
    invariant gives it back, the accumulator's contents forgotten. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_some V c _ _

end Cert.Kernel.Hand

end
-- ==== Proof.Kernel.Fold.lean ====
/-
  The contents of every unscoped buffer of a core between the items of @main — three stretches of host
  operations around the two calls —, as a fold from the launch memory: W0 at launch; W1 after the first
  stretch; W2 after the first call (its output array at what its one write-back leaves); W3 after the second
  stretch; W4 after the second call (its output array at what its two write-backs leave); W5 after the last
  stretch. No item writes an argument array.
-/
import proofs.«142550_j42949672961129_1_alg».proof.Proof.Gen.Kernel.Launch
import proofs.«142550_j42949672961129_1_alg».proof.Proof.Gen.Kernel.Skeleton
import proofs.«142550_j42949672961129_1_alg».proof.Proof.Gen.Kernel.Points
import proofs.«142550_j42949672961129_1_alg».proof.Proof.Kernel.Region0
import proofs.«142550_j42949672961129_1_alg».proof.Proof.Kernel.Region1Dat
import proofs.«142550_j42949672961129_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (the first call's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the second call's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the second call: its output array at what the pipeline leaves, every other buffer as entered. -/
def W4 (c : Dev nD) : Valuation τ sig (Elt F) :=
  Function.update (W3 m c) (Proc.devRef .tc main_v6) ((dat1 (E3 m) c).arrAt 2 cfg1.N)
abbrev E4 : (c : Dev nD) → (b : Ref sig .tc) → Buf (Elt F) ((c : Thread nD τ).loc b) := fun c b => W4 m c b
theorem W4_out (c : Dev nD) : E4 m c main_v6 = (dat1 (E3 m) c).arrAt 2 cfg1.N := by
  show W4 m c (Proc.devRef .tc main_v6) = _
  unfold W4; exact Function.update_self ..
theorem W4_of_ne (c : Dev nD) (b : Ref sig .tc) (hb : b ≠ main_v6) : E4 m c b = E3 m c b := by
  show W4 m c (Proc.devRef .tc b) = W3 m c (Proc.devRef .tc b)
  unfold W4; exact Function.update_of_ne (StableHlo.devRef_ne_of_ne hb) ..
/-- After the last host stretch. -/
abbrev W5 : Dev nD → Valuation τ sig (Elt F) := fun c => StableHlo.after hostOps2 (W4 m c)

/-! ## No item writes an argument -/

/-- The first argument's buffer reaches the end as launched: no host stretch writes it and no call's
    output window is on it. -/
theorem W5_arg0 (c : Dev nD) : W5 m c (Proc.devRef .tc main_arg0) = m ((c : Thread nD τ).loc main_arg0) :=
  (StableHlo.after_of_writes_sub hostOps2 _ hostOps2_writes (r := main_arg0) (by decide)).trans <|
  (W4_of_ne m c main_arg0 (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl

theorem W5_arg1 (c : Dev nD) : W5 m c (Proc.devRef .tc main_arg1) = m ((c : Thread nD τ).loc main_arg1) :=
  (StableHlo.after_of_writes_sub hostOps2 _ hostOps2_writes (r := main_arg1) (by decide)).trans <|
  (W4_of_ne m c main_arg1 (by decide)).trans <|
  (StableHlo.after_of_writes_sub hostOps1 _ hostOps1_writes (r := main_arg1) (by decide)).trans <|
  (W2_of_ne m c main_arg1 (by decide)).trans <|
  (StableHlo.after_of_writes_sub hostOps0 _ hostOps0_writes (r := main_arg1) (by decide)).trans rfl

end Cert.Kernel.Hand

end
-- ==== Proof.Kernel.Run.lean ====
/-
  The whole run of @main: three stretches of host operations around the two calls. Between two items core
  c holds every unscoped buffer at contents W0 … W5: the launch memory; after the first stretch; after the
  first call (its output array at what its one write-back leaves); after the second stretch; after the
  second call (its output array at what its two write-backs leave); after the last stretch. Each call is a
  segment entered from "all unscoped buffers at W(k)" and left at "all unscoped buffers at W(k+1)", the
  generator register and an empty debt riding along. The second call reads ONE array through two windows:
  at its entry that buffer's full share is split into halves, one per window, and joined again at its exit.
  The run ends with every unscoped buffer of the final memory at W5.
-/
import proofs.«142550_j42949672961129_1_alg».proof.Proof.Gen.Kernel.Launch
import proofs.«142550_j42949672961129_1_alg».proof.Proof.Gen.Kernel.Skeleton
import proofs.«142550_j42949672961129_1_alg».proof.Proof.Gen.Kernel.Points
import proofs.«142550_j42949672961129_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No call has a prefetched table. -/
abbrev admK : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) admK p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The second call's arrays: two windows on one buffer -/

theorem arrImage1 : Finset.univ.image (Pipeline.arrRef spec1) = ([main_v5, main_v6] : List (Ref sig .tc)).toFinset := by decide

/-- The distinct buffers behind the second call's windows: the transposed features and the output. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v5) ↦{fullShare} Vv main_v5) ∗ (((c : Thread nD τ).loc main_v6) ↦{fullShare} Vv main_v6)) := by
  unfold Pipeline.arrBufs
  exact bigSep_eq_bigSepL_of_eq [main_v5, main_v6] arrImage1 (by decide) _

/-- The second call's arrays as the pipeline holds them: each operand window half of the features' buffer,
    the output window its buffer whole. -/
theorem arrays1_eq (Vv : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 Vv c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2)) := by
  unfold Dat.arrays
  rw [bigSep_W1, (arr_whole1 0).set_eq_univ, (arr_whole1 2).set_eq_univ]
  rfl

/-- Split at entry, joined at exit: the two buffers at Vv are the pipeline's arrays at any G that reads
    Vv at each window's array. -/
theorem arrays1_iff (Vv : (c : Dev nD) → (b : Ref sig .tc) → Buf (Elt F) ((c : Thread nD τ).loc b)) (c : Dev nD)
    (Uv : (b : Ref sig .tc) → Buf (Elt F) ((c : Thread nD τ).loc b))
    (G : (w : Fin cfg1.W) → Buf (Elt F) ((cfg1.win w).arr.view.loc (c : Thread nD τ)))
    (hG : ∀ w, G w = Uv (Pipeline.arrRef spec1 w)) :
    (Pipeline.arrBufs (Ix := Unit) (Name := ℕ) (U := UR sig nD τ) (Lvl := ℕ) spec1 c Uv : sProp 𝕄) ⊣⊢ (dat1 Vv c).arrays G := by
  rw [arrBufs1_eq, arrays1_eq, hG 0, hG 1, hG 2]
  have hs : ((((c : Thread nD τ).loc main_v5) ↦{fullShare} Uv main_v5) : sProp 𝕄)
      ⊣⊢ iprop((((c : Thread nD τ).loc main_v5) ↦{fullShare.left} Uv main_v5) ∗ (((c : Thread nD τ).loc main_v5) ↦{fullShare.right} Uv main_v5)) :=
    pointsTo_share (PosShare.mem_left_op_right fullShare)
  show iprop((((c : Thread nD τ).loc main_v5) ↦{fullShare} Uv main_v5) ∗ (((c : Thread nD τ).loc main_v6) ↦{fullShare} Uv main_v6))
    ⊣⊢ iprop((((c : Thread nD τ).loc main_v5) ↦{fullShare.left} Uv main_v5) ∗ (((c : Thread nD τ).loc main_v5) ↦{fullShare.right} Uv main_v5)
        ∗ (((c : Thread nD τ).loc main_v6) ↦{fullShare} Uv main_v6))
  constructor
  · iintro ⟨H5, H6⟩
    ihave H := hs.1 $$ H5
    icases H with ⟨Hl, Hr⟩
    isplitl [Hl]; · iexact Hl
    isplitl [Hr]; · iexact Hr
    iexact H6
  · iintro ⟨Hl, Hr, H6⟩
    isplitr [H6]
    · iapply hs.2; isplitl [Hl]; · iexact Hl
      iexact Hr
    · iexact H6

/-! ## The calls as segments -/

set_option backward.isDefEq.respectTransparency.types false in
/-- The first call: entered with every unscoped buffer at W1, left at W2. Its three arrays are distinct: they
    are taken out of the unscoped buffers at entry and put back at the exit contents. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second call's arrays at entry read the entry contents. -/
theorem hG1_entry (c : Dev nD) (w : Fin cfg1.W) : (dat1 (E3 m) c).arrAt w 0 = E3 m c (Pipeline.arrRef spec1 w) :=
  A_eq1 (E3 m) c w

/-- and at exit the exit contents: the operand windows' array is never written, the output's is W4's. -/
theorem hG1_exit (c : Dev nD) (w : Fin cfg1.W) : (dat1 (E3 m) c).arrAt w cfg1.N = E4 m c (Pipeline.arrRef spec1 w) := by
  match w with
  | ⟨0, _⟩ => exact (((dat1 (E3 m) c).arrAt_in 0 rfl _).trans (A_eq1 (E3 m) c 0)).trans (W4_of_ne m c main_v5 (by decide)).symm
  | ⟨1, _⟩ => exact (((dat1 (E3 m) c).arrAt_in 1 rfl _).trans (A_eq1 (E3 m) c 1)).trans (W4_of_ne m c main_v5 (by decide)).symm
  | ⟨2, _⟩ => exact (W4_out m c).symm

/-- Off the output array the exit contents are the entry contents. -/
theorem rest1_eq (c : Dev nD) :
    (Pipeline.unscopedRest (Ix := Unit) (Name := ℕ) (U := UR sig nD τ) (Lvl := ℕ) spec1 c (E4 m c) : sProp 𝕄)
      = Pipeline.unscopedRest (Ix := Unit) (Name := ℕ) (U := UR sig nD τ) (Lvl := ℕ) spec1 c (E3 m c) := by
  unfold Pipeline.unscopedRest
  refine bigSep_congr fun b hb => ?_
  have hne : b ≠ main_v6 := fun e => (Finset.mem_sdiff.mp hb).2 (Finset.mem_image.mpr ⟨2, Finset.mem_univ _, e.symm⟩)
  rw [W4_of_ne m c b hne]

set_option backward.isDefEq.respectTransparency.types false in
/-- The second call: entered with every unscoped buffer at W3, left at W4. -/
def reg1 : Pipeline.RegionSeg (pcfgs (F := F)) admK (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0)
            ∗ Pipeline.unscopedRest (Ix := Unit) (Name := ℕ) (U := UR sig nD τ) (Lvl := ℕ) spec1 c (E3 m c)) := by
      rw [← Pipeline.unscopedBufs_held (Ix := Unit) (Name := ℕ) (U := UR sig nD τ) (Lvl := ℕ) c (W3 m c),
        Pipeline.unscopedBufs_split₀ (Pipeline.pin (pcfgs (F := F)) admK) 1 winFacts₀1.arr_unscoped c (E3 m c)]
      show iprop(Pipeline.arrBufs (Ix := Unit) (Name := ℕ) (U := UR sig nD τ) (Lvl := ℕ) spec1 c (E3 m c)
            ∗ Pipeline.unscopedRest (Ix := Unit) (Name := ℕ) (U := UR sig nD τ) (Lvl := ℕ) spec1 c (E3 m c))
        ⊢ iprop((dat1 (E3 m) c).arrays ((dat1 (E3 m) c).arrAt · 0)
            ∗ Pipeline.unscopedRest (Ix := Unit) (Name := ℕ) (U := UR sig nD τ) (Lvl := ℕ) spec1 c (E3 m c))
      exact sep_mono (arrays1_iff (E3 m) c (E3 m c) _ (hG1_entry m c)).1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E3 m) c)
    unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (E3 m c))
        ⊢ (StableHlo.held (c : Thread nD τ) (Pipeline.ucRefs τ sig) (W4 m c) : sProp 𝕄) := by
      rw [← Pipeline.unscopedBufs_held (Ix := Unit) (Name := ℕ) (U := UR sig nD τ) (Lvl := ℕ) c (W4 m c),
        Pipeline.unscopedBufs_split₀ (Pipeline.pin (pcfgs (F := F)) admK) 1 winFacts₀1.arr_unscoped c (E4 m c)]
      show iprop((dat1 (E3 m) c).arrays ((dat1 (E3 m) c).arrAt · cfg1.N)
            ∗ Pipeline.unscopedRest (Ix := Unit) (Name := ℕ) (U := UR sig nD τ) (Lvl := ℕ) spec1 c (E3 m c))
        ⊢ iprop(Pipeline.arrBufs (Ix := Unit) (Name := ℕ) (U := UR sig nD τ) (Lvl := ℕ) spec1 c (E4 m c)
            ∗ Pipeline.unscopedRest (Ix := Unit) (Name := ℕ) (U := UR sig nD τ) (Lvl := ℕ) spec1 c (E4 m c))
      rw [rest1_eq]
      exact sep_mono (arrays1_iff (E3 m) c (E4 m c) _ (hG1_exit m c)).2 .rfl
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev mainSegs : List (Pipeline.Seg (pcfgs (F := F)) admK (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (mainSegs m) := (main_chain c).trans (by chain_rfl)

/-- The last thread state without the debt: every unscoped buffer at W5, the generator register at some state. -/
abbrev Tₙ (c : Dev nD) : sProp 𝕄 := iprop(StableHlo.held (c : Thread nD τ) (Pipeline.ucRefs τ sig) (W5 m c) ∗ ∃ r, prngReg c r)

set_option backward.isDefEq.respectTransparency.types false in
/-- THE RUN. From any memory with zero counters, every weakly fair execution of @main terminates, nothing
    faulting, and the final memory holds every unscoped buffer of every core at W5. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admK (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME, read off the run: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_arg0 m c), (h c _ (mem_uc main_arg1 (by decide))).trans (W5_arg1 m c)⟩)
    (run m ρ)

end Cert.Kernel.Hand

end
-- ==== Proof.KernelIdeal.Region0.lean ====
/-
  The first call of the program: the matrix product M = x · T', one grid point. Its two operands are
  fetched whole into their staging buffers, the body multiplies them into a zero accumulator and stores the
  512 × 512 product over the whole output buffer, which is written back. Stated at a parameter V, the
  contents of the core's buffers when the call is entered: what each window's block is, what the body
  leaves in the output buffer (one store covering it), the body's triple, the pipeline's proof data and
  the body obligation.
-/
import proofs.«142550_j42949672961129_1_alg».proof.Proof.Gen.KernelIdeal.Launch
import proofs.«142550_j42949672961129_1_alg».proof.Proof.Gen.KernelIdeal.Skeleton
import proofs.«142550_j42949672961129_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An operand's staging buffer holds its block when the body runs: it is fetched at the one point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body reads and writes: the whole 512 × 512 buffer. -/
abbrev rWhole0 : Rect S512x512 := Rect.unit (s := S512x512) ![0, 0] S512x512.size inb_S512x512_S512x512_0_0

/-- What the body leaves in the output buffer, from the two operand blocks: the product, stored whole. -/
def prod0 (x0 x1 : Vec F S512x512 .bf16) : Vec F S512x512 .f32 :=
  View.canon [⟨rWhole0, k0_pay1 (View.ld x0 rWhole0) (View.ld x1 rWhole0)⟩]

/-- The one store covers the buffer. -/
theorem cover0 (p0 : Vec F S512x512 .f32) (y : S512x512.Idx) :
    ∃ pc ∈ ([⟨rWhole0, p0⟩] : List (View.Piece (Elt F) S512x512 .f32)), y ∈ pc.1.set :=
  View.cover_of_tiled [⟨rWhole0, p0⟩] S512x512.size (by rfl) y

set_option maxHeartbeats 1000000 in
/-- The body on whole staging memrefs, the operands' at x0 and x1 and the output's at anything, runs to the
    continuation holding the operands' unchanged and the output's at their product. -/
theorem sound_kernel0 (c : Dev nD) (E : Set ℕ) (i : grid0.Coords)
    (arg1 : Memref sig .tc .vmem S512x512 .bf16) (harg1 : arg1.IsWhole) (arg2 : Memref sig .tc .vmem S512x512 .bf16) (harg2 : arg2.IsWhole)
    (arg3 : Memref sig .tc .vmem S512x512 .f32) (harg3 : arg3.IsWhole)
    (x0 x1 : Vec F S512x512 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (prod0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0 _)

/-- The pipeline's proof data on core c: the arrays as the call finds them; after the body each operand's
    buffer at its block and the output's at the product of the two blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prod0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = prod0 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1Defs.lean ====
/-
  The second call of the program: for each of the 2 × 4 grid points (i, j), rows 256·i … 256·i+255 against
  rows 128·j … 128·j+127 of the transposed features. A scratch accumulator of 32 × 256 sums carries
  Σ_j' Σ_r' exp(−dist) across the four points of one i: it is reset when j = 0, added to at every point,
  and at j = 3 the output block is stored from it, less one, and written back.
  Here: the windows' blocks as the call finds them, the branch conditions decided over the grid, where the
  output window is idle, the body's arithmetic as three named functions (reset value, one point's update of
  the accumulator, the final block), and the accumulator's contents after each point by recursion.
-/
import proofs.«142550_j42949672961129_1_alg».proof.Proof.Gen.KernelIdeal.Launch
import proofs.«142550_j42949672961129_1_alg».proof.Proof.Gen.KernelIdeal.Skeleton
import proofs.«142550_j42949672961129_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An operand's staging buffer holds its block when the body runs, fetched at that point or not: where it is
    not fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- "j = 0": the accumulator is reset. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "j = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from j = 3 the body stores nothing into the output window, and the block is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- At j = 3 it stores the block. -/
theorem liveAt1_2 : ∀ t : Fin cfg1.N, cond1_1 (grid1.coords t) → cfg1.idle 2 (grid1.coords t) = false := by decide +kernel

/-! ## The staging memrefs the body is called with, and the scratch -/

abbrev ms1_0 (t : Fin cfg1.N) : Memref sig .tc .vmem S32x16x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x16x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S32x256 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S32x256 .f32 := Memref.whole cc1_scratch0

/-- The call's invariant with the accumulator held as P: the first call's three staging buffers at some
    contents, then P, beside the generator register at some state. -/
def PhiWith (c : Dev nD) (P : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ P) ∗ (∃ r, prngReg c r))

/-- The class invariant is that with the accumulator at some contents. -/
theorem PhiA1_eq (c : Dev nD) :
    (Pipeline.ΦA spec1 c : sProp 𝕄) = PhiWith c (iprop(∃ d, owns (c : Thread nD τ) scM1 fullShare d)) := by
  unfold Pipeline.ΦA PhiWith; rw [scopedRest1_eq]; simp only [scM1, owns_whole]; try rfl

/-! ## The body's arithmetic -/

/-- The value the accumulator is reset to (zeros). -/
def zero1 : Vec F S32x256 .f32 := k1_pay3 (F := F)

/-- One point's update: the accumulator prev plus, per (group, row), the sum over the 128 columns of
    exp(−Σ_c |x0[·,c,row] − x1[·,c,col]|), from the two operand blocks. -/
def step1 (x0 : Vec F S32x16x256 .f32) (x1 : Vec F S32x16x128 .f32) (prev : Vec F S32x256 .f32) : Vec F S32x256 .f32 :=
  k1_pay1 (k1_pay4 x0) (k1_pay5 x1)
    (k1_pay11 (k1_pay4 x0) (k1_pay5 x1) (k1_pay9 (k1_pay4 x0) (k1_pay5 x1) (k1_pay6 x0 x1) (k1_pay7 x1) (k1_pay8 x0)) (k1_pay10 (k1_pay4 x0)))
    (k1_pay12 (k1_pay4 x0)) (k1_pay13 (k1_pay5 x1)) prev

/-- The output block from the finished accumulator: less one. -/
def fin1 (s : Vec F S32x256 .f32) : Vec F S32x256 .f32 := k1_pay2 s

/-- The accumulator after point n: reset at the points ≡ 0 (mod 4), else continued from the point before. -/
def acc1 (c : Dev nD) : (n : ℕ) → n < cfg1.N → Vec F S32x256 .f32
  | 0, h => step1 (iblk1 V c 0 ⟨0, h⟩) (iblk1 V c 1 ⟨0, h⟩) zero1
  | n + 1, h => step1 (iblk1 V c 0 ⟨n + 1, h⟩) (iblk1 V c 1 ⟨n + 1, h⟩)
      (if (n + 1) % 4 = 0 then zero1 else acc1 c n (Nat.lt_of_succ_lt h))

theorem acc1_succ (c : Dev nD) (n : ℕ) (h : n + 1 < cfg1.N) :
    acc1 V c (n + 1) h = step1 (iblk1 V c 0 ⟨n + 1, h⟩) (iblk1 V c 1 ⟨n + 1, h⟩)
      (if (n + 1) % 4 = 0 then zero1 else acc1 V c n (Nat.lt_of_succ_lt h)) := rfl

theorem acc1_reset (c : Dev nD) (t : Fin cfg1.N) (h0 : t.val % 4 = 0) :
    acc1 V c t.val t.isLt = step1 (iblk1 V c 0 t) (iblk1 V c 1 t) zero1 := by
  obtain ⟨n, hn⟩ := t
  cases n with
  | zero => rfl
  | succ n =>
    have h0' : (n + 1) % 4 = 0 := h0
    exact (acc1_succ V c n hn).trans (by rw [if_pos h0'])

theorem acc1_cont (c : Dev nD) (t : Fin cfg1.N) (h0 : ¬t.val % 4 = 0) :
    acc1 V c t.val t.isLt = step1 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n =>
    have h0' : ¬(n + 1) % 4 = 0 := h0
    exact (acc1_succ V c n hn).trans (by rw [if_neg h0']; rfl)

end Cert.KernelIdeal.Hand

end
-- ==== Proof.KernelIdeal.Region1Runs.lean ====
/-
  The second call's body on whole staging memrefs and the scratch accumulator, in its three control
  cases: the reset point (j = 0), a middle point (j = 1, 2) and the last point (j = 3), each run to the
  continuation with the accumulator at one update of what it held (of zero at the reset point) and, at the
  last point, the output buffer at the finished accumulator less one.
-/
import proofs.«142550_j42949672961129_1_alg».proof.Proof.Gen.KernelIdeal.Launch
import proofs.«142550_j42949672961129_1_alg».proof.Proof.Gen.KernelIdeal.Skeleton
import proofs.«142550_j42949672961129_1_alg».proof.Proof.Gen.KernelIdeal.Points
import proofs.«142550_j42949672961129_1_alg».proof.Proof.KernelIdeal.Region1Defs
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 32 × 256 buffer as one rectangle at offset zero. -/
abbrev rAcc : Rect S32x256 := Rect.unit (s := S32x256) ![0, 0] S32x256.size inb_S32x256_S32x256_0_0

theorem hzAcc : (![0, 0] : Fin S32x256.rank → Nat) = fun _ => 0 := by
  funext a; fin_cases a <;> rfl
theorem hzIn0 : (![0, 0, 0] : Fin S32x16x256.rank → Nat) = fun _ => 0 := by
  funext a; fin_cases a <;> rfl
theorem hzIn1 : (![0, 0, 0] : Fin S32x16x128.rank → Nat) = fun _ => 0 := by
  funext a; fin_cases a <;> rfl

/-- One whole-buffer store covers the buffer. -/
theorem coverAcc (p0 : Vec F S32x256 .f32) (y : S32x256.Idx) :
    ∃ pc ∈ ([⟨rAcc, p0⟩] : List (View.Piece (Elt F) S32x256 .f32)), y ∈ pc.1.set :=
  View.cover_of_tiled [⟨rAcc, p0⟩] S32x256.size (by rfl) y

/-- The whole-shape rectangle at zero offsets holds every index. -/
theorem mem_unit_zero {S : Shape} {off : Fin S.rank → Nat} (h : off = fun _ => 0) (inb : ∀ a, off a + S.size a ≤ S.size a)
    (y : S.Idx) : y ∈ (Rect.unit off S.size inb).set := by
  subst h; show y ∈ (Rect.whole S).set; rw [Rect.set_whole]; exact Finset.mem_univ y

set_option maxHeartbeats 2000000 in
/-- A middle point: neither branch is taken; the accumulator goes from s to one update of s. -/
theorem sound_kernel1_B (c : Dev nD) (E : Set ℕ) (i : grid1.Coords)
    (arg2 : Memref sig .tc .vmem S32x16x256 .f32) (harg2 : arg2.IsWhole) (arg3 : Memref sig .tc .vmem S32x16x128 .f32) (harg3 : arg3.IsWhole)
    (arg4 : Memref sig .tc .vmem S32x256 .f32) (harg4 : arg4.IsWhole) (arg5 : Memref sig .tc .vmem S32x256 .f32) (harg5 : arg5.IsWhole)
    (hc0 : ¬cond1_0 i) (hc1 : ¬cond1_1 i)
    (x0 : Vec F S32x16x256 .f32) (x1 : Vec F S32x16x128 .f32) (s : Vec F S32x256 .f32) (K : PUnit → sProp 𝕄) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (step1 x0 x1 s)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  simp only [k1_part1_eq_skeleton, k1_part2_eq_skeleton, k1_part3_eq_skeleton]
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (coverAcc _), View.canon_unit_zero hzAcc]
  simp only [View.readAt_eq_ld, View.ld_unit_zero (S := S32x256) hzAcc, View.ld_unit_zero (S := S32x16x256) hzIn0, View.ld_unit_zero (S := S32x16x128) hzIn1]
  rfl

set_option maxHeartbeats 2000000 in
/-- The reset point: the first branch is taken (the accumulator, at anything, is zeroed), the second is not. -/
theorem sound_kernel1_A (c : Dev nD) (E : Set ℕ) (i : grid1.Coords)
    (arg2 : Memref sig .tc .vmem S32x16x256 .f32) (harg2 : arg2.IsWhole) (arg3 : Memref sig .tc .vmem S32x16x128 .f32) (harg3 : arg3.IsWhole)
    (arg4 : Memref sig .tc .vmem S32x256 .f32) (harg4 : arg4.IsWhole) (arg5 : Memref sig .tc .vmem S32x256 .f32) (harg5 : arg5.IsWhole)
    (hc0 : cond1_0 i) (hc1 : ¬cond1_1 i)
    (x0 : Vec F S32x16x256 .f32) (x1 : Vec F S32x16x128 .f32) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (step1 x0 x1 zero1)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  simp only [k1_part1_eq_skeleton, k1_part2_eq_skeleton, k1_part3_eq_skeleton]
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  sl_unfold_run_names
  rw [View.read_writes_eq_canon _ _ _ (fun y => ⟨_, List.mem_cons_self, mem_unit_zero (S := S32x256) hzAcc inb_S32x256_S32x256_0_0 y⟩), View.canon_cons_unit_zero hzAcc]
  simp only [View.readCov_unit_zero (S := S32x256) _ hzAcc, View.readAt_eq_ld, View.ld_unit_zero (S := S32x256) hzAcc, View.ld_unit_zero (S := S32x16x256) hzIn0, View.ld_unit_zero (S := S32x16x128) hzIn1]
  rfl

set_option maxHeartbeats 2000000 in
/-- The last point: the first branch is not taken, the second is: after the update the output buffer, at
    anything, is stored from the accumulator less one. -/
theorem sound_kernel1_C (c : Dev nD) (E : Set ℕ) (i : grid1.Coords)
    (arg2 : Memref sig .tc .vmem S32x16x256 .f32) (harg2 : arg2.IsWhole) (arg3 : Memref sig .tc .vmem S32x16x128 .f32) (harg3 : arg3.IsWhole)
    (arg4 : Memref sig .tc .vmem S32x256 .f32) (harg4 : arg4.IsWhole) (arg5 : Memref sig .tc .vmem S32x256 .f32) (harg5 : arg5.IsWhole)
    (hc0 : ¬cond1_0 i) (hc1 : cond1_1 i)
    (x0 : Vec F S32x16x256 .f32) (x1 : Vec F S32x16x128 .f32) (s : Vec F S32x256 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s
        ∗ (iprop(owns (c : Thread nD τ) arg2 fullShare x0 ∗ owns (c : Thread nD τ) arg3 fullShare x1
            ∗ owns (c : Thread nD τ) arg4 fullShare (fin1 (step1 x0 x1 s))
            ∗ owns (c : Thread nD τ) arg5 fullShare (step1 x0 x1 s)) -∗ K ⟨⟩))
      ⊢ wp frame (wpE (defs₀ (F := F)) Variants.none c none) E (cc1__pairwise_kernel i arg2 harg2 arg3 harg3 arg4 harg4 arg5 harg5) K := by
  simp only [cc1__pairwise_kernel_eq_skeleton]; unfold cc1__pairwise_kernel_skel
  simp only [k1_part1_eq_skeleton, k1_part2_eq_skeleton, k1_part3_eq_skeleton]
  unfold owns
  iintro ⟨⟨%f0, %hf0, H0⟩, ⟨%f1, %hf1, H1⟩, ⟨%d4, %f4, -, H4⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H4]
  · iexists _; isplitr
    swap; · iexact H4
    ipureintro
    sl_unfold_run_names
    rw [View.read_writes_eq_canon _ _ _ (fun y => ⟨_, List.mem_cons_self, mem_unit_zero (S := S32x256) hzAcc inb_S32x256_S32x256_0_0 y⟩), View.canon_cons_unit_zero hzAcc]
    simp only [View.readCov_unit_zero (S := S32x256) _ hzAcc, View.readAt_eq_ld, View.ld_unit_zero (S := S32x256) hzAcc, View.ld_unit_zero (S := S32x16x256) hzIn0, View.ld_unit_zero (S := S32x16x128) hzIn1]
    rfl
  iexists _; isplitr
  swap; · iexact HS
  ipureintro
  sl_unfold_run_names
  rw [View.read_writes_eq_canon _ _ _ (fun y => ⟨_, List.mem_cons_self, mem_unit_zero (S := S32x256) hzAcc inb_S32x256_S32x256_0_0 y⟩), View.canon_cons_unit_zero hzAcc]
  simp only [View.readCov_unit_zero (S := S32x256) _ hzAcc, View.readAt_eq_ld, View.ld_unit_zero (S := S32x256) hzAcc, View.ld_unit_zero (S := S32x16x256) hzIn0, View.ld_unit_zero (S := S32x16x128) hzIn1]
  rfl

end Cert.KernelIdeal.Hand

end
-- ==== Proof.KernelIdeal.Region1Dat.lean ====
/-
  The second call's proof data and body obligation. The invariant carries the accumulator: before the first
  point it is at anything; after point n it holds acc1 n. Each operand window's buffer holds its block at
  every point. The output window is stored only at the points with j = 3 (the finished accumulator less one,
  written back there); elsewhere it is idle and handed back as found. The three control cases are the three
  residues of the point's number modulo 4 (0; 1 or 2; 3). The operand windows both read the one transposed
  feature array, each at half of its share.
-/
import proofs.«142550_j42949672961129_1_alg».proof.Proof.Gen.KernelIdeal.Launch
import proofs.«142550_j42949672961129_1_alg».proof.Proof.Gen.KernelIdeal.Skeleton
import proofs.«142550_j42949672961129_1_alg».proof.Proof.Gen.KernelIdeal.Points
import proofs.«142550_j42949672961129_1_alg».proof.Proof.KernelIdeal.Region1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The invariant before position n: the class's (accumulator at anything) before the first point, then the
    accumulator at what the point before left. -/
def PhiS1 (c : Dev nD) : (n : ℕ) → n ≤ cfg1.N → sProp 𝕄
  | 0, _ => Pipeline.ΦA spec1 c
  | n + 1, hn => PhiWith c (owns (c : Thread nD τ) scM1 fullShare (acc1 V c n hn))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = PhiWith c (owns (c : Thread nD τ) scM1 fullShare (acc1 V c n hn)) := rfl

theorem PhiS1_pos (c : Dev nD) (n : ℕ) (h : n ≤ cfg1.N) (hz : n ≠ 0) :
    PhiS1 V c n h = PhiWith c (owns (c : Thread nD τ) scM1 fullShare (acc1 V c (n - 1) (by omega))) := by
  cases n with
  | zero => exact absurd rfl hz
  | succ n => rfl

/-- Whatever the position, the invariant holds the accumulator at some contents. -/
theorem PhiS1_some (c : Dev nD) (n : ℕ) (h : n ≤ cfg1.N) :
    PhiS1 V c n h ⊢ PhiWith c (iprop(∃ d, owns (c : Thread nD τ) scM1 fullShare d)) := by
  cases n with
  | zero => rw [PhiS1_zero V c 0 h rfl, PhiA1_eq]
  | succ n =>
    rw [PhiS1_succ]; unfold PhiWith
    iintro ⟨⟨H0, H1, H2, HS⟩, Hg⟩
    isplitr [Hg]
    · isplitl [H0]; · iexact H0
      isplitl [H1]; · iexact H1
      isplitl [H2]; · iexact H2
      iexists _; iexact HS
    · iexact Hg

/-- The proof data of the second call on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => fin1 (acc1 V c t.val t.isLt)
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = fin1 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 8 := lt_of_lt_of_eq t.isLt (show cfg1.N = 8 from N_1)
  rw [PhiS1_castSucc V c t]
  by_cases h0 : t.val % 4 = 0
  · -- the reset point
    have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1), acc1_reset V c t h0]
    have hΦ := PhiS1_some V c t.val (Nat.le_of_lt t.isLt)
    unfold PhiWith at hΦ ⊢
    iintro ⟨HΦ, Ho, ⟨%d0, H0⟩, ⟨%d1, H1⟩, H2⟩
    ihave HΦ' := hΦ $$ HΦ
    icases HΦ' with ⟨⟨Hs0, Hs1, Hs2, HS⟩, Hg⟩
    iapply (sound_kernel1_A c Set.univ _ _ _ _ _ _ _ _ _ hc0 hc1 (iblk1 V c 0 t) (iblk1 V c 1 t) _)
    isplitl [H0]; · iexact H0
    isplitl [H1]; · iexact H1
    isplitl [HS]; · iexact HS
    iintro ⟨H0, H1, HS⟩
    isplitl [Hs0 Hs1 Hs2 HS Hg]
    · isplitr [Hg]
      · isplitl [Hs0]; · iexact Hs0
        isplitl [Hs1]; · iexact Hs1
        isplitl [Hs2]; · iexact Hs2
        iexact HS
      · iexact Hg
    isplitl [Ho]; · iexact Ho
    isplitl [H0]; · iexact H0
    isplitl [H1]; · iexact H1
    iexact H2
  · have hz : t.val ≠ 0 := fun e => h0 (by rw [e])
    have hc0 : ¬cond1_0 (grid1.coords t) := fun h => h0 ((hcond1_0 t).mp h)
    rw [PhiS1_pos V c _ _ hz, acc1_cont V c t h0]
    by_cases h1 : t.val % 4 = 3
    · -- the last point
      have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_cont V c t h0]
      unfold PhiWith
      iintro ⟨⟨⟨Hs0, Hs1, Hs2, HS⟩, Hg⟩, Ho, ⟨%d0, H0⟩, ⟨%d1, H1⟩, ⟨%d2, H2⟩⟩
      iapply (sound_kernel1_C c Set.univ _ _ _ _ _ _ _ _ _ hc0 hc1 (iblk1 V c 0 t) (iblk1 V c 1 t) _ _)
      isplitl [H0]; · iexact H0
      isplitl [H1]; · iexact H1
      isplitl [H2]; · iexists _; iexact H2
      isplitl [HS]; · iexact HS
      iintro ⟨H0, H1, H2, HS⟩
      isplitl [Hs0 Hs1 Hs2 HS Hg]
      · isplitr [Hg]
        · isplitl [Hs0]; · iexact Hs0
          isplitl [Hs1]; · iexact Hs1
          isplitl [Hs2]; · iexact Hs2
          iexact HS
        · iexact Hg
      isplitl [Ho]; · iexact Ho
      isplitl [H0]; · iexact H0
      isplitl [H1]; · iexact H1
      iexact H2
    · -- a middle point
      have hc1 : ¬cond1_1 (grid1.coords t) := fun h => h1 ((hcond1_1 t).mp h)
      rw [Dat.leavesExact_idle (dat1 V c) 2 t (idleAt1_2 t hc1) (noFlush1_2 t hc1)]
      unfold PhiWith
      iintro ⟨⟨⟨Hs0, Hs1, Hs2, HS⟩, Hg⟩, Ho, ⟨%d0, H0⟩, ⟨%d1, H1⟩, H2⟩
      iapply (sound_kernel1_B c Set.univ _ _ _ _ _ _ _ _ _ hc0 hc1 (iblk1 V c 0 t) (iblk1 V c 1 t) _ _)
      isplitl [H0]; · iexact H0
      isplitl [H1]; · iexact H1
      isplitl [HS]; · iexact HS
      iintro ⟨H0, H1, HS⟩
      isplitl [Hs0 Hs1 Hs2 HS Hg]
      · isplitr [Hg]
        · isplitl [Hs0]; · iexact Hs0
          isplitl [Hs1]; · iexact Hs1
          isplitl [Hs2]; · iexact Hs2
          iexact HS
        · iexact Hg
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point; after the last point the
    invariant gives it back, the accumulator's contents forgotten. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_some V c _ _

end Cert.KernelIdeal.Hand

end
-- ==== Proof.KernelIdeal.Fold.lean ====
/-
  The contents of every unscoped buffer of a core between the items of @main — three stretches of host
  operations around the two calls —, as a fold from the launch memory: W0 at launch; W1 after the first
  stretch; W2 after the first call (its output array at what its one write-back leaves); W3 after the second
  stretch; W4 after the second call (its output array at what its two write-backs leave); W5 after the last
  stretch. No item writes an argument array.
-/
import proofs.«142550_j42949672961129_1_alg».proof.Proof.Gen.KernelIdeal.Launch
import proofs.«142550_j42949672961129_1_alg».proof.Proof.Gen.KernelIdeal.Skeleton
import proofs.«142550_j42949672961129_1_alg».proof.Proof.Gen.KernelIdeal.Points
import proofs.«142550_j42949672961129_1_alg».proof.Proof.KernelIdeal.Region0
import proofs.«142550_j42949672961129_1_alg».proof.Proof.KernelIdeal.Region1Dat
import proofs.«142550_j42949672961129_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (the first call's entry). -/
abbrev W1 : Dev nD → Valuation τ sig (Elt F) := fun c => StableHlo.after hostOps0 (W0 m c)
abbrev E1 : (c : Dev nD) → (b : Ref sig .tc) → Buf (Elt F) ((c : Thread nD τ).loc b) := fun c b => W1 m c b
/-- After the first call: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the second call's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- After the second call: its output array at what the pipeline leaves, every other buffer as entered. -/
def W4 (c : Dev nD) : Valuation τ sig (Elt F) :=
  Function.update (W3 m c) (Proc.devRef .tc main_v6) ((dat1 (E3 m) c).arrAt 2 cfg1.N)
abbrev E4 : (c : Dev nD) → (b : Ref sig .tc) → Buf (Elt F) ((c : Thread nD τ).loc b) := fun c b => W4 m c b
theorem W4_out (c : Dev nD) : E4 m c main_v6 = (dat1 (E3 m) c).arrAt 2 cfg1.N := by
  show W4 m c (Proc.devRef .tc main_v6) = _
  unfold W4; exact Function.update_self ..
theorem W4_of_ne (c : Dev nD) (b : Ref sig .tc) (hb : b ≠ main_v6) : E4 m c b = E3 m c b := by
  show W4 m c (Proc.devRef .tc b) = W3 m c (Proc.devRef .tc b)
  unfold W4; exact Function.update_of_ne (StableHlo.devRef_ne_of_ne hb) ..
/-- After the last host stretch. -/
abbrev W5 : Dev nD → Valuation τ sig (Elt F) := fun c => StableHlo.after hostOps2 (W4 m c)

/-! ## No item writes an argument -/

/-- The first argument's buffer reaches the end as launched: no host stretch writes it and no call's
    output window is on it. -/
theorem W5_arg0 (c : Dev nD) : W5 m c (Proc.devRef .tc main_arg0) = m ((c : Thread nD τ).loc main_arg0) :=
  (StableHlo.after_of_writes_sub hostOps2 _ hostOps2_writes (r := main_arg0) (by decide)).trans <|
  (W4_of_ne m c main_arg0 (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl

theorem W5_arg1 (c : Dev nD) : W5 m c (Proc.devRef .tc main_arg1) = m ((c : Thread nD τ).loc main_arg1) :=
  (StableHlo.after_of_writes_sub hostOps2 _ hostOps2_writes (r := main_arg1) (by decide)).trans <|
  (W4_of_ne m c main_arg1 (by decide)).trans <|
  (StableHlo.after_of_writes_sub hostOps1 _ hostOps1_writes (r := main_arg1) (by decide)).trans <|
  (W2_of_ne m c main_arg1 (by decide)).trans <|
  (StableHlo.after_of_writes_sub hostOps0 _ hostOps0_writes (r := main_arg1) (by decide)).trans rfl

end Cert.KernelIdeal.Hand

end
-- ==== Proof.KernelIdeal.Run.lean ====
/-
  The whole run of @main: three stretches of host operations around the two calls. Between two items core
  c holds every unscoped buffer at contents W0 … W5: the launch memory; after the first stretch; after the
  first call (its output array at what its one write-back leaves); after the second stretch; after the
  second call (its output array at what its two write-backs leave); after the last stretch. Each call is a
  segment entered from "all unscoped buffers at W(k)" and left at "all unscoped buffers at W(k+1)", the
  generator register and an empty debt riding along. The second call reads ONE array through two windows:
  at its entry that buffer's full share is split into halves, one per window, and joined again at its exit.
  The run ends with every unscoped buffer of the final memory at W5.
-/
import proofs.«142550_j42949672961129_1_alg».proof.Proof.Gen.KernelIdeal.Launch
import proofs.«142550_j42949672961129_1_alg».proof.Proof.Gen.KernelIdeal.Skeleton
import proofs.«142550_j42949672961129_1_alg».proof.Proof.Gen.KernelIdeal.Points
import proofs.«142550_j42949672961129_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No call has a prefetched table. -/
abbrev admK : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) admK p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The second call's arrays: two windows on one buffer -/

theorem arrImage1 : Finset.univ.image (Pipeline.arrRef spec1) = ([main_v5, main_v6] : List (Ref sig .tc)).toFinset := by decide

/-- The distinct buffers behind the second call's windows: the transposed features and the output. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v5) ↦{fullShare} Vv main_v5) ∗ (((c : Thread nD τ).loc main_v6) ↦{fullShare} Vv main_v6)) := by
  unfold Pipeline.arrBufs
  exact bigSep_eq_bigSepL_of_eq [main_v5, main_v6] arrImage1 (by decide) _

/-- The second call's arrays as the pipeline holds them: each operand window half of the features' buffer,
    the output window its buffer whole. -/
theorem arrays1_eq (Vv : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 Vv c).arrays G : sProp 𝕄)
      = iprop((((c : Thread nD τ).loc main_v5) ↦{fullShare.left} G 0) ∗ (((c : Thread nD τ).loc main_v5) ↦{fullShare.right} G 1)
          ∗ (((c : Thread nD τ).loc main_v6) ↦{fullShare} G 2)) := by
  unfold Dat.arrays
  rw [bigSep_W1, (arr_whole1 0).set_eq_univ, (arr_whole1 2).set_eq_univ]
  rfl

/-- Split at entry, joined at exit: the two buffers at Vv are the pipeline's arrays at any G that reads
    Vv at each window's array. -/
theorem arrays1_iff (Vv : (c : Dev nD) → (b : Ref sig .tc) → Buf (Elt F) ((c : Thread nD τ).loc b)) (c : Dev nD)
    (Uv : (b : Ref sig .tc) → Buf (Elt F) ((c : Thread nD τ).loc b))
    (G : (w : Fin cfg1.W) → Buf (Elt F) ((cfg1.win w).arr.view.loc (c : Thread nD τ)))
    (hG : ∀ w, G w = Uv (Pipeline.arrRef spec1 w)) :
    (Pipeline.arrBufs (Ix := Unit) (Name := ℕ) (U := UR sig nD τ) (Lvl := ℕ) spec1 c Uv : sProp 𝕄) ⊣⊢ (dat1 Vv c).arrays G := by
  rw [arrBufs1_eq, arrays1_eq, hG 0, hG 1, hG 2]
  have hs : ((((c : Thread nD τ).loc main_v5) ↦{fullShare} Uv main_v5) : sProp 𝕄)
      ⊣⊢ iprop((((c : Thread nD τ).loc main_v5) ↦{fullShare.left} Uv main_v5) ∗ (((c : Thread nD τ).loc main_v5) ↦{fullShare.right} Uv main_v5)) :=
    pointsTo_share (PosShare.mem_left_op_right fullShare)
  show iprop((((c : Thread nD τ).loc main_v5) ↦{fullShare} Uv main_v5) ∗ (((c : Thread nD τ).loc main_v6) ↦{fullShare} Uv main_v6))
    ⊣⊢ iprop((((c : Thread nD τ).loc main_v5) ↦{fullShare.left} Uv main_v5) ∗ (((c : Thread nD τ).loc main_v5) ↦{fullShare.right} Uv main_v5)
        ∗ (((c : Thread nD τ).loc main_v6) ↦{fullShare} Uv main_v6))
  constructor
  · iintro ⟨H5, H6⟩
    ihave H := hs.1 $$ H5
    icases H with ⟨Hl, Hr⟩
    isplitl [Hl]; · iexact Hl
    isplitl [Hr]; · iexact Hr
    iexact H6
  · iintro ⟨Hl, Hr, H6⟩
    isplitr [H6]
    · iapply hs.2; isplitl [Hl]; · iexact Hl
      iexact Hr
    · iexact H6

/-! ## The calls as segments -/

set_option backward.isDefEq.respectTransparency.types false in
/-- The first call: entered with every unscoped buffer at W1, left at W2. Its three arrays are distinct: they
    are taken out of the unscoped buffers at entry and put back at the exit contents. -/
def reg0 : Pipeline.RegionSeg (pcfgs (F := F)) admK (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) admK (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The second call's arrays at entry read the entry contents. -/
theorem hG1_entry (c : Dev nD) (w : Fin cfg1.W) : (dat1 (E3 m) c).arrAt w 0 = E3 m c (Pipeline.arrRef spec1 w) :=
  A_eq1 (E3 m) c w

/-- and at exit the exit contents: the operand windows' array is never written, the output's is W4's. -/
theorem hG1_exit (c : Dev nD) (w : Fin cfg1.W) : (dat1 (E3 m) c).arrAt w cfg1.N = E4 m c (Pipeline.arrRef spec1 w) := by
  match w with
  | ⟨0, _⟩ => exact (((dat1 (E3 m) c).arrAt_in 0 rfl _).trans (A_eq1 (E3 m) c 0)).trans (W4_of_ne m c main_v5 (by decide)).symm
  | ⟨1, _⟩ => exact (((dat1 (E3 m) c).arrAt_in 1 rfl _).trans (A_eq1 (E3 m) c 1)).trans (W4_of_ne m c main_v5 (by decide)).symm
  | ⟨2, _⟩ => exact (W4_out m c).symm

/-- Off the output array the exit contents are the entry contents. -/
theorem rest1_eq (c : Dev nD) :
    (Pipeline.unscopedRest (Ix := Unit) (Name := ℕ) (U := UR sig nD τ) (Lvl := ℕ) spec1 c (E4 m c) : sProp 𝕄)
      = Pipeline.unscopedRest (Ix := Unit) (Name := ℕ) (U := UR sig nD τ) (Lvl := ℕ) spec1 c (E3 m c) := by
  unfold Pipeline.unscopedRest
  refine bigSep_congr fun b hb => ?_
  have hne : b ≠ main_v6 := fun e => (Finset.mem_sdiff.mp hb).2 (Finset.mem_image.mpr ⟨2, Finset.mem_univ _, e.symm⟩)
  rw [W4_of_ne m c b hne]

set_option backward.isDefEq.respectTransparency.types false in
/-- The second call: entered with every unscoped buffer at W3, left at W4. -/
def reg1 : Pipeline.RegionSeg (pcfgs (F := F)) admK (pdats m) () defs₀ 𝒱₀ L lv 1 where
  win := winFacts₀1
  block_pos := block_pos1
  stage_whole := stage_whole1
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit : (StableHlo.held (c : Thread nD τ) (Pipeline.ucRefs τ sig) (W3 m c) : sProp 𝕄)
        ⊢ iprop((pdats m 1 c).arrays ((pdats m 1 c).arrAt · 0)
            ∗ Pipeline.unscopedRest (Ix := Unit) (Name := ℕ) (U := UR sig nD τ) (Lvl := ℕ) spec1 c (E3 m c)) := by
      rw [← Pipeline.unscopedBufs_held (Ix := Unit) (Name := ℕ) (U := UR sig nD τ) (Lvl := ℕ) c (W3 m c),
        Pipeline.unscopedBufs_split₀ (Pipeline.pin (pcfgs (F := F)) admK) 1 winFacts₀1.arr_unscoped c (E3 m c)]
      show iprop(Pipeline.arrBufs (Ix := Unit) (Name := ℕ) (U := UR sig nD τ) (Lvl := ℕ) spec1 c (E3 m c)
            ∗ Pipeline.unscopedRest (Ix := Unit) (Name := ℕ) (U := UR sig nD τ) (Lvl := ℕ) spec1 c (E3 m c))
        ⊢ iprop((dat1 (E3 m) c).arrays ((dat1 (E3 m) c).arrAt · 0)
            ∗ Pipeline.unscopedRest (Ix := Unit) (Name := ℕ) (U := UR sig nD τ) (Lvl := ℕ) spec1 c (E3 m c))
      exact sep_mono (arrays1_iff (E3 m) c (E3 m c) _ (hG1_entry m c)).1 .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E3 m) c)
    unfold Pipeline.ΦA
    iintro ⟨Hp, -, Hr⟩
    isplitl [Hr]; · iexact Hr
    iexact Hp
  hout c := by
    rw [Pipeline.ownSems0_none]
    refine (hout1 (E3 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N)
          ∗ Pipeline.unscopedRest (Ix := Unit) (Name := ℕ) (U := UR sig nD τ) (Lvl := ℕ) spec1 c (E3 m c))
        ⊢ (StableHlo.held (c : Thread nD τ) (Pipeline.ucRefs τ sig) (W4 m c) : sProp 𝕄) := by
      rw [← Pipeline.unscopedBufs_held (Ix := Unit) (Name := ℕ) (U := UR sig nD τ) (Lvl := ℕ) c (W4 m c),
        Pipeline.unscopedBufs_split₀ (Pipeline.pin (pcfgs (F := F)) admK) 1 winFacts₀1.arr_unscoped c (E4 m c)]
      show iprop((dat1 (E3 m) c).arrays ((dat1 (E3 m) c).arrAt · cfg1.N)
            ∗ Pipeline.unscopedRest (Ix := Unit) (Name := ℕ) (U := UR sig nD τ) (Lvl := ℕ) spec1 c (E3 m c))
        ⊢ iprop(Pipeline.arrBufs (Ix := Unit) (Name := ℕ) (U := UR sig nD τ) (Lvl := ℕ) spec1 c (E4 m c)
            ∗ Pipeline.unscopedRest (Ix := Unit) (Name := ℕ) (U := UR sig nD τ) (Lvl := ℕ) spec1 c (E4 m c))
      rw [rest1_eq]
      exact sep_mono (arrays1_iff (E3 m) c (E4 m c) _ (hG1_exit m c)).2 .rfl
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev mainSegs : List (Pipeline.Seg (pcfgs (F := F)) admK (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (mainSegs m) := (main_chain c).trans (by chain_rfl)

/-- The last thread state without the debt: every unscoped buffer at W5, the generator register at some state. -/
abbrev Tₙ (c : Dev nD) : sProp 𝕄 := iprop(StableHlo.held (c : Thread nD τ) (Pipeline.ucRefs τ sig) (W5 m c) ∗ ∃ r, prngReg c r)

set_option backward.isDefEq.respectTransparency.types false in
/-- THE RUN. From any memory with zero counters, every weakly fair execution of @main terminates, nothing
    faulting, and the final memory holds every unscoped buffer of every core at W5. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) admK (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-- THE FRAME, read off the run: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_arg0 m c), (h c _ (mem_uc main_arg1 (by decide))).trans (W5_arg1 m c)⟩)
    (run m ρ)

end Cert.KernelIdeal.Hand

end
-- ==== Proof.KBlocks.lean ====
/-
  From blocks to arrays. The first call's one point writes the whole product back, so its output array ends
  at the product of its two operand arrays. The second call writes back at the points 3 and 7 only (j = 3 for
  i = 0 and i = 1): block i of the 32 × 512 output holds the finished accumulator of row tile i, less one.
  Its operand windows read the transposed features at rows 256·i … and columns 128·j … of the last axis.
-/
import proofs.«142550_j42949672961129_1_alg».proof.Proof.KernelIdeal.Region0
import proofs.«142550_j42949672961129_1_alg».proof.Proof.KernelIdeal.Region1Dat
import Idealize.ShloMosaic.Lib.ValueIdx
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

variable {F : FTy → Type} [FloatOps F]
variable (Vv : (c : Dev nD) → (b : Ref sig .tc) → Buf (Elt F) ((c : Thread nD τ).loc b))

/-- The first call's three index maps at its one point: block index zero on both axes. -/
theorem idx0_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The first call's first operand block is the whole operand array: a block's coordinate is block index ×
    block size + the coordinate inside the block, and the block index is zero. -/
theorem blk0_0_read (c : Dev nD) (t : Fin cfg0.N) : iblk0 Vv c 0 t = Vv c main_v1 := by
  obtain ⟨e0, e1, -, -, -, -⟩ := idx0_zero t
  unfold iblk0
  funext j
  rw [View.read_apply]
  show Vv c main_v1 (((cfg0.win 0).blk t).view.emb j) = Vv c main_v1 j
  refine congrArg (Vv c main_v1) (funext fun a => Fin.ext ?_)
  match a with
  | ⟨0, _⟩ => show win0_0.index t (0 : Fin 2) * 512 + 1 * (j 0).val = (j 0).val; rw [e0]; omega
  | ⟨1, _⟩ => show win0_0.index t (1 : Fin 2) * 512 + 1 * (j 1).val = (j 1).val; rw [e1]; omega

/-- So is its second. -/
theorem blk0_1_read (c : Dev nD) (t : Fin cfg0.N) : iblk0 Vv c 1 t = Vv c main_v2 := by
  obtain ⟨-, -, e0, e1, -, -⟩ := idx0_zero t
  unfold iblk0
  funext j
  rw [View.read_apply]
  show Vv c main_v2 (((cfg0.win 1).blk t).view.emb j) = Vv c main_v2 j
  refine congrArg (Vv c main_v2) (funext fun a => Fin.ext ?_)
  match a with
  | ⟨0, _⟩ => show win0_1.index t (0 : Fin 2) * 512 + 1 * (j 0).val = (j 0).val; rw [e0]; omega
  | ⟨1, _⟩ => show win0_1.index t (1 : Fin 2) * 512 + 1 * (j 1).val = (j 1).val; rw [e1]; omega

/-- Any contents of the output array, read through the output window's block, are those contents. -/
theorem blk0_2_read (t : Fin cfg0.N) (G : Vec F S512x512 .f32) :
    ((cfg0.win 2).blk t).view.read (Elt F) G = G := by
  obtain ⟨-, -, -, -, e0, e1⟩ := idx0_zero t
  funext j
  rw [View.read_apply]
  show G (((cfg0.win 2).blk t).view.emb j) = G j
  refine congrArg G (funext fun a => Fin.ext ?_)
  match a with
  | ⟨0, _⟩ => show win0_2.index t (0 : Fin 2) * 512 + 1 * (j 0).val = (j 0).val; rw [e0]; omega
  | ⟨1, _⟩ => show win0_2.index t (1 : Fin 2) * 512 + 1 * (j 1).val = (j 1).val; rw [e1]; omega

/-- What the one point writes back is the product of the operand arrays, read through its block. -/
theorem flushed0_eq (c : Dev nD) (t : Fin cfg0.N) :
    (dat0 Vv c).flushed 2 t = ((cfg0.win 2).blk t).view.read (Elt F) (prod0 (Vv c main_v1) (Vv c main_v2)) := by
  show (cfg0.win 2).cut (cfg0.grid.coords t) ((dat0 Vv c).after 2 t) = _
  rw [after0_2, blk0_0_read, blk0_1_read, blk0_2_read]
  generalize prod0 (Vv c main_v1) (Vv c main_v2) = X
  funext j
  exact congrArg X (funext fun a => Fin.ext rfl)

/-- An index of the first call's output array is in the point's block iff each coordinate is in the block's
    range on its axis. -/
theorem mem_blk0_2 (t : Fin cfg0.N) (i : S512x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v3).slice (win0_2.rect t)).set ↔ _
  rw [View.set_slice_whole, Rect.mem_set_unit]
  exact Iff.rfl

/-- The first call's output array after the call: the product of its two operand arrays as it finds them. -/
theorem arr0_final (c : Dev nD) :
    (dat0 Vv c).arrAt 2 cfg0.N = prod0 (Vv c main_v1) (Vv c main_v2) :=
  (dat0 Vv c).arrAt_eq_of_cover 2 (prod0 (Vv c main_v1) (Vv c main_v2)) (fun t _ => flushed0_eq Vv c t) fun i => by
    obtain ⟨-, -, -, -, e0, e1⟩ := idx0_zero t0_0
    refine ⟨t0_0, flush0_2 t0_0, ?_⟩
    rw [mem_blk0_2]
    intro a
    have h0 : (i 0).val < 512 := (i 0).isLt
    have h1 : (i 1).val < 512 := (i 1).isLt
    match a with
    | ⟨0, _⟩ => show win0_2.index t0_0 (0 : Fin 2) * 512 ≤ (i 0).val ∧ (i 0).val < win0_2.index t0_0 (0 : Fin 2) * 512 + 512; rw [e0]; omega
    | ⟨1, _⟩ => show win0_2.index t0_0 (1 : Fin 2) * 512 ≤ (i 1).val ∧ (i 1).val < win0_2.index t0_0 (1 : Fin 2) * 512 + 512; rw [e1]; omega

/-- The second call's index maps over the grid, t = 4·i + j: the first operand's block moves along the last
    axis with i = t / 4, the second's with j = t mod 4, the output's along its last axis with i; every other
    block index is zero. -/
theorem idx1_facts : ∀ t : Fin cfg1.N,
    win1_0.index t (0 : Fin 3) = 0 ∧ win1_0.index t (1 : Fin 3) = 0 ∧ win1_0.index t (2 : Fin 3) = t.val / 4
    ∧ win1_1.index t (0 : Fin 3) = 0 ∧ win1_1.index t (1 : Fin 3) = 0 ∧ win1_1.index t (2 : Fin 3) = t.val % 4
    ∧ win1_2.index t (0 : Fin 2) = 0 ∧ win1_2.index t (1 : Fin 2) = t.val / 4 :=
  (by decide +kernel : ∀ t : Fin grid1.N, _)

/-- The row of the features a point's first operand block holds at its row r: 256·i + r, i = t / 4. -/
def rowOf (t : Fin cfg1.N) (r : Fin 256) : Fin 512 :=
  ⟨256 * (t.val / 4) + r.val, by have := t.isLt; have h8 : cfg1.N = 8 := N_1; omega⟩
/-- The row of the features a point's second operand block holds at its column q: 128·j + q, j = t mod 4. -/
def colOf (t : Fin cfg1.N) (q : Fin 128) : Fin 512 :=
  ⟨128 * (t.val % 4) + q.val, by omega⟩

/-- The second call's first operand block at a point, read at (group b, feature cc, row r). -/
theorem iblk1_0_apply (c : Dev nD) (t : Fin cfg1.N) (b : Fin 32) (cc : Fin 16) (r : Fin 256) :
    iblk1 Vv c 0 t (ix3 b cc r) = Vv c main_v5 (ix3 b cc (rowOf t r)) := by
  obtain ⟨e0, e1, e2, -, -, -, -, -⟩ := idx1_facts t
  unfold iblk1
  rw [View.read_apply]
  show Vv c main_v5 (((cfg1.win 0).blk t).view.emb (ix3 b cc r)) = Vv c main_v5 (ix3 b cc (rowOf t r))
  refine congrArg (Vv c main_v5) (funext fun a => Fin.ext ?_)
  match a with
  | ⟨0, _⟩ => show win1_0.index t (0 : Fin 3) * 32 + 1 * b.val = b.val; rw [e0]; omega
  | ⟨1, _⟩ => show win1_0.index t (1 : Fin 3) * 16 + 1 * cc.val = cc.val; rw [e1]; omega
  | ⟨2, _⟩ => show win1_0.index t (2 : Fin 3) * 256 + 1 * r.val = 256 * (t.val / 4) + r.val; rw [e2]; omega

/-- The second call's second operand block at a point, read at (group b, feature cc, column q). -/
theorem iblk1_1_apply (c : Dev nD) (t : Fin cfg1.N) (b : Fin 32) (cc : Fin 16) (q : Fin 128) :
    iblk1 Vv c 1 t (ix3 b cc q) = Vv c main_v5 (ix3 b cc (colOf t q)) := by
  obtain ⟨-, -, -, e0, e1, e2, -, -⟩ := idx1_facts t
  unfold iblk1
  rw [View.read_apply]
  show Vv c main_v5 (((cfg1.win 1).blk t).view.emb (ix3 b cc q)) = Vv c main_v5 (ix3 b cc (colOf t q))
  refine congrArg (Vv c main_v5) (funext fun a => Fin.ext ?_)
  match a with
  | ⟨0, _⟩ => show win1_1.index t (0 : Fin 3) * 32 + 1 * b.val = b.val; rw [e0]; omega
  | ⟨1, _⟩ => show win1_1.index t (1 : Fin 3) * 16 + 1 * cc.val = cc.val; rw [e1]; omega
  | ⟨2, _⟩ => show win1_1.index t (2 : Fin 3) * 128 + 1 * q.val = 128 * (t.val % 4) + q.val; rw [e2]; omega

/-- The last point of row tile i0 (i0 = 0, 1): number 4·i0 + 3. -/
def lastOf (i : Fin 512) : Fin cfg1.N :=
  ⟨4 * (i.val / 256) + 3, by have h8 : cfg1.N = 8 := N_1; have := i.isLt; omega⟩

/-- The second call's output array as one function of the accumulators: row i of group b holds the finished
    accumulator of i's row tile, less one, at i's row within the tile. -/
def out1 (c : Dev nD) : Vec F S32x512 .f32 := fun p =>
  fin1 (acc1 Vv c (lastOf ⟨(p 1).val, idx2_lt1 p⟩).val (lastOf ⟨(p 1).val, idx2_lt1 p⟩).isLt)
    (ix2 (⟨(p 0).val, idx2_lt0 p⟩ : Fin 32) (⟨(p 1).val % 256, Nat.mod_lt _ (by norm_num)⟩ : Fin 256))

/-- That function read at (group b, row i). -/
theorem out1_apply (c : Dev nD) (b : Fin 32) (i : Fin 512) :
    out1 Vv c (ix2 b i)
      = fin1 (acc1 Vv c (lastOf i).val (lastOf i).isLt) (ix2 b (⟨i.val % 256, Nat.mod_lt _ (by norm_num)⟩ : Fin 256)) := rfl

/-- At a writing point t (t mod 4 = 3), row 256·(t / 4) + r of that function is row r of the block the point
    stores: the row's tile is t / 4, whose last point is t. -/
theorem out1_at (c : Dev nD) (t : Fin cfg1.N) (ht : t.val % 4 = 3) (b : Fin 32) (r : Fin 256) (i : Fin 512)
    (hi : i.val = 256 * (t.val / 4) + r.val) :
    out1 Vv c (ix2 b i) = fin1 (acc1 Vv c t.val t.isLt) (ix2 b r) := by
  have hl : lastOf i = t := Fin.ext (by show 4 * (i.val / 256) + 3 = t.val; have := r.isLt; omega)
  have hr : (⟨i.val % 256, Nat.mod_lt _ (by norm_num)⟩ : Fin 256) = r :=
    Fin.ext (by show i.val % 256 = r.val; have := r.isLt; omega)
  rw [out1_apply, hl, hr]

/-- What a writing point writes back is its block of that function. -/
theorem flushed1_eq (c : Dev nD) (t : Fin cfg1.N) (hf : (cfg1.win 2).flush t = true) :
    (dat1 Vv c).flushed 2 t = ((cfg1.win 2).blk t).view.read (Elt F) (out1 Vv c) := by
  have ht : t.val % 4 = 3 := (flush1_2 t).mp hf
  have hN : t.val < 8 := lt_of_lt_of_eq t.isLt (show cfg1.N = 8 from N_1)
  obtain ⟨-, -, -, -, -, -, e0, e1⟩ := idx1_facts t
  show (cfg1.win 2).cut (cfg1.grid.coords t) ((dat1 Vv c).after 2 t) = _
  rw [after1_2]
  funext j
  rw [View.read_apply]
  obtain ⟨b, r, rfl⟩ : ∃ (b : Fin 32) (r : Fin 256), j = ix2 b r := ⟨j 0, j 1, eq_ix2 j⟩
  have hemb : ((cfg1.win 2).blk t).view.emb (ix2 b r)
      = ix2 b (⟨256 * (t.val / 4) + r.val, by have := r.isLt; omega⟩ : Fin 512) := by
    funext a; apply Fin.ext
    match a with
    | ⟨0, _⟩ => show win1_2.index t (0 : Fin 2) * 32 + 1 * b.val = b.val; rw [e0]; omega
    | ⟨1, _⟩ => show win1_2.index t (1 : Fin 2) * 256 + 1 * r.val = 256 * (t.val / 4) + r.val; rw [e1]; omega
  show fin1 (acc1 Vv c t.val t.isLt) (ix2 b r) = out1 Vv c (((cfg1.win 2).blk t).view.emb (ix2 b r))
  rw [hemb, out1_at Vv c t ht b r _ rfl]

/-- An index of the second call's output array is in a point's block iff each coordinate is in the block's
    range on its axis. -/
theorem mem_blk1_2 (t : Fin cfg1.N) (p : S32x512.Idx) :
    p ∈ ((cfg1.win 2).blk t).view.set ↔ ∀ a : Fin 2, win1_2.index t a * S32x256.size a ≤ (p a).val ∧ (p a).val < win1_2.index t a * S32x256.size a + S32x256.size a := by
  show p ∈ ((View.whole main_v6).slice (win1_2.rect t)).set ↔ _
  rw [View.set_slice_whole, Rect.mem_set_unit]
  exact Iff.rfl

/-- The second call's output array after the call is that function: the two writing points' blocks cover it,
    row i lying in the block of the last point of i's row tile. -/
theorem arr1_final (c : Dev nD) : (dat1 Vv c).arrAt 2 cfg1.N = out1 Vv c :=
  (dat1 Vv c).arrAt_eq_of_cover 2 (out1 Vv c) (flushed1_eq Vv c) fun p => by
    have h0 : (p 0).val < 32 := (p 0).isLt
    have h1 : (p 1).val < 512 := (p 1).isLt
    obtain ⟨-, -, -, -, -, -, e0, e1⟩ := idx1_facts (lastOf ⟨(p 1).val, h1⟩)
    have hl : (lastOf ⟨(p 1).val, h1⟩).val = 4 * ((p 1).val / 256) + 3 := rfl
    refine ⟨lastOf ⟨(p 1).val, h1⟩, (flush1_2 _).mpr (by rw [hl]; omega), ?_⟩
    rw [mem_blk1_2]
    intro a
    match a with
    | ⟨0, _⟩ =>
      show win1_2.index (lastOf ⟨(p 1).val, h1⟩) (0 : Fin 2) * 32 ≤ (p 0).val ∧ (p 0).val < win1_2.index (lastOf ⟨(p 1).val, h1⟩) (0 : Fin 2) * 32 + 32
      rw [e0]; omega
    | ⟨1, _⟩ =>
      show win1_2.index (lastOf ⟨(p 1).val, h1⟩) (1 : Fin 2) * 256 ≤ (p 1).val ∧ (p 1).val < win1_2.index (lastOf ⟨(p 1).val, h1⟩) (1 : Fin 2) * 256 + 256
      rw [e1, hl]; omega

/-- The second call's output array after the call, read at (group b, row i): the finished accumulator of
    i's row tile, less one, at i's row within the tile. -/
theorem arr1_final_apply (c : Dev nD) (b : Fin 32) (i : Fin 512) :
    (dat1 Vv c).arrAt 2 cfg1.N (ix2 b i)
      = fin1 (acc1 Vv c (lastOf i).val (lastOf i).isLt) (ix2 b (⟨i.val % 256, Nat.mod_lt _ (by norm_num)⟩ : Fin 256)) := by
  rw [arr1_final, out1_apply]

end Cert.KernelIdeal.HandValue

end
-- ==== Proof.KValue1.lean ====
/-
  The second call's arithmetic at the ideal instance, read at an entry (group b, row r):
    the reset value is 0;
    one point's update adds, to the accumulator, Σ over the 128 columns q of exp(−Σ_c |x0[b,c,r] − x1[b,c,q]|);
    the final block is the accumulator less one.
  The body accumulates the sixteen |·| terms one after another from zero and negates by subtracting from
  zero; over the extended reals addition is associative and commutative and 0 − a = −a, so these are the
  plain sums.
-/
import proofs.«142550_j42949672961129_1_alg».proof.Proof.KernelIdeal.Region1Defs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.ValueIdx

/-! ## Layout operations of the body read at explicit coordinates -/

section Layout
variable {α : Type}

/-- An `[a, 1, c]` array cast to `[a, c]` reads, at `(i, k)`, the operand at `(i, 0, k)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

/-- An `[a, c]` array cast to `[a, c, 1]` (each entry kept as a column of one) reads, at `(i, k, u)`, the
    operand at `(i, k)`. -/
theorem shapeCast_ac_ac1_apply {a c : ℕ} (x : (⟨2, ![a, c]⟩ : Shape).Idx → α)
    (h : (⟨2, ![a, c]⟩ : Shape).ShapeCasts ⟨3, ![a, c, 1]⟩) (i : Fin a) (k : Fin c) (u : Fin 1) :
    shapeCast ⟨3, ![a, c, 1]⟩ x h (ix3 i k u) = x (ix2 i k) :=
  shapeCast_apply x h _ _ (by
    have hu : u.val = 0 := by omega
    rw [Shape.rowMajor_val_three, Shape.rowMajor_val_two]
    show i.val * c + k.val = (i.val * c + k.val) * 1 + u.val
    rw [hu, Nat.mul_one, Nat.add_zero])

/-- An `[a, c]` array cast to `[a, 1, c]` (each row kept as one row of a matrix) reads, at `(i, u, k)`, the
    operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, c, 1]` array broadcast to `[a, c, d]` reads, at `(i, k, l)`, the operand's one entry `(i, k, 0)`. -/
theorem broadcastTo_ac1_acd_apply {a c d : ℕ} (v : (⟨3, ![a, c, 1]⟩ : Shape).Idx → α)
    (h : (⟨3, ![a, c, 1]⟩ : Shape).Broadcasts ⟨3, ![a, c, d]⟩) (i : Fin a) (k : Fin c) (l : Fin d) :
    broadcastTo ⟨3, ![a, c, d]⟩ v h (ix3 i k l) = v (ix3 i k (0 : Fin 1)) := by
  refine broadcastTo_apply v h (ix3 i k l) (ix3 i k (0 : Fin 1)) fun ax => ?_
  match ax with
  | ⟨0, _⟩ =>
    show i.val = if a = 1 then 0 else i.val
    split
    · have := i.isLt; omega
    · rfl
  | ⟨1, _⟩ =>
    show k.val = if c = 1 then 0 else k.val
    split
    · have := k.isLt; omega
    · rfl
  | ⟨2, _⟩ => rfl

/-- An `[a, 1, d]` array broadcast to `[a, c, d]` reads, at `(i, k, l)`, the operand's one row at `(i, 0, l)`. -/
theorem broadcastTo_a1d_acd_apply {a c d : ℕ} (v : (⟨3, ![a, 1, d]⟩ : Shape).Idx → α)
    (h : (⟨3, ![a, 1, d]⟩ : Shape).Broadcasts ⟨3, ![a, c, d]⟩) (i : Fin a) (k : Fin c) (l : Fin d) :
    broadcastTo ⟨3, ![a, c, d]⟩ v h (ix3 i k l) = v (ix3 i (0 : Fin 1) l) := by
  refine broadcastTo_apply v h (ix3 i k l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if d = 1 then 0 else l.val
    split
    · have := l.isLt; omega
    · rfl

end Layout

/-! ## The two operands' rows, as the body cuts, reshapes and broadcasts them -/

section Chains
variable {α : Type}

/-- Row `c` of the first operand, cut at offset `o = c`, reads at `(b, 0, r)` the operand at `(b, c, r)`. -/
theorem rowL_apply (X : S32x16x256.Idx → α) (o : ℕ) (c : Fin 16) (hc : c.val = o)
    (h0 : S32x16x256.Slices ![0, o, 0] S32x1x256) (b : Fin 32) (u : Fin 1) (r : Fin 256) :
    extractStridedSlice S32x1x256 ![0, o, 0] X h0 (ix3 b u r) = X (ix3 b c r) :=
  slice3_axis1_apply o X h0 b u r c (by have hu : u.val = 0 := by omega
                                        rw [hc, hu, Nat.add_zero])

/-- Row `c` of the second operand likewise. -/
theorem rowR_apply (X : S32x16x128.Idx → α) (o : ℕ) (c : Fin 16) (hc : c.val = o)
    (h0 : S32x16x128.Slices ![0, o, 0] S32x1x128) (b : Fin 32) (u : Fin 1) (q : Fin 128) :
    extractStridedSlice S32x1x128 ![0, o, 0] X h0 (ix3 b u q) = X (ix3 b c q) :=
  slice3_axis1_apply o X h0 b u q c (by have hu : u.val = 0 := by omega
                                        rw [hc, hu, Nat.add_zero])

/-- A cut row of the first operand as a column `[32, 256, 1]`: at `(b, r, 0)` the row's entry `(b, 0, r)`. -/
theorem colL_apply (w : S32x1x256.Idx → α) (h1 : S32x1x256.ShapeCasts S32x256) (h2 : S32x256.ShapeCasts S32x256x1)
    (b : Fin 32) (r : Fin 256) (u : Fin 1) :
    shapeCast S32x256x1 (shapeCast S32x256 w h1) h2 (ix3 b r u) = w (ix3 b (0 : Fin 1) r) :=
  (shapeCast_ac_ac1_apply _ h2 b r u).trans (shapeCast_a1c_ac_apply w h1 b r)

/-- A cut row of the second operand kept as a row `[32, 1, 128]`: at `(b, 0, q)` the row's entry `(b, 0, q)`. -/
theorem keepR_apply (w : S32x1x128.Idx → α) (h1 : S32x1x128.ShapeCasts S32x128) (h2 : S32x128.ShapeCasts S32x1x128)
    (b : Fin 32) (u : Fin 1) (q : Fin 128) :
    shapeCast S32x1x128 (shapeCast S32x128 w h1) h2 (ix3 b u q) = w (ix3 b (0 : Fin 1) q) :=
  (shapeCast_ac_a1c_apply _ h2 b u q).trans (shapeCast_a1c_ac_apply w h1 b q)

/-- The first operand's row `c` spread over the columns: at `(b, r, q)` the operand at `(b, c, r)`. -/
theorem spreadL_apply (X : S32x16x256.Idx → α) (o : ℕ) (c : Fin 16) (hc : c.val = o)
    (h0 : S32x16x256.Slices ![0, o, 0] S32x1x256) (h1 : S32x1x256.ShapeCasts S32x256) (h2 : S32x256.ShapeCasts S32x256x1)
    (h3 : S32x256x1.Broadcasts S32x256x128) (b : Fin 32) (r : Fin 256) (q : Fin 128) :
    broadcastTo S32x256x128 (shapeCast S32x256x1 (shapeCast S32x256 (extractStridedSlice S32x1x256 ![0, o, 0] X h0) h1) h2) h3
        (ix3 b r q) = X (ix3 b c r) :=
  (broadcastTo_ac1_acd_apply _ h3 b r q).trans ((colL_apply _ h1 h2 b r 0).trans (rowL_apply X o c hc h0 b 0 r))

/-- The second operand's row `c` spread over the rows: at `(b, r, q)` the operand at `(b, c, q)`. -/
theorem spreadR_apply (X : S32x16x128.Idx → α) (o : ℕ) (c : Fin 16) (hc : c.val = o)
    (h0 : S32x16x128.Slices ![0, o, 0] S32x1x128) (h1 : S32x1x128.ShapeCasts S32x128) (h2 : S32x128.ShapeCasts S32x1x128)
    (h3 : S32x1x128.Broadcasts S32x256x128) (b : Fin 32) (r : Fin 256) (q : Fin 128) :
    broadcastTo S32x256x128 (shapeCast S32x1x128 (shapeCast S32x128 (extractStridedSlice S32x1x128 ![0, o, 0] X h0) h1) h2) h3
        (ix3 b r q) = X (ix3 b c q) :=
  (broadcastTo_a1d_acd_apply _ h3 b r q).trans ((keepR_apply _ h1 h2 b 0 q).trans (rowR_apply X o c hc h0 b 0 q))

end Chains

/-! ## One |·| term, and the sixteen of them -/

/-- The distance's term for feature `c`: |x0[b,c,r] − x1[b,c,q]|, as the maximum of the difference and its negation. -/
def absDiff (x0 : Vec Ideal S32x16x256 .f32) (x1 : Vec Ideal S32x16x128 .f32) (b : Fin 32) (r : Fin 256) (q : Fin 128)
    (c : Fin 16) : EReal :=
  max ((x0 (ix3 b c r) : EReal) - (x1 (ix3 b c q) : EReal)) (-((x0 (ix3 b c r) : EReal) - (x1 (ix3 b c q) : EReal)))

/-- Sixteen terms accumulated one after another from zero are their sum. -/
theorem acc16_eq_sum (f : Fin 16 → EReal) :
    0 + f 0 + f 1 + f 2 + f 3 + f 4 + f 5 + f 6 + f 7 + f 8 + f 9 + f 10 + f 11 + f 12 + f 13 + f 14 + f 15 = ∑ c, f c := by
  simp only [Fin.sum_univ_castSucc, Fin.sum_univ_zero]
  rfl

/-- The reduced index `(b, r)` with the lane `q` put back is `(b, r, q)`. -/
theorem lift_ix2 (h : S32x256x128.Reduces [2] S32x256) (b : Fin 32) (r : Fin 256) (q : Fin 128) :
    h.lift (ix2 b r) q = ix3 b r q := by
  funext a
  match a with
  | ⟨0, _⟩ => rfl
  | ⟨1, _⟩ => rfl
  | ⟨2, _⟩ => rfl

/-! ## The payloads read at an entry -/

/-- The body's same-shape casts of the two operand blocks are the blocks. -/
theorem pay4_eq (x0 : Vec Ideal S32x16x256 .f32) : k1_pay4 (F := Ideal) x0 = x0 := shapeCast_self _ _
theorem pay5_eq (x1 : Vec Ideal S32x16x128 .f32) : k1_pay5 (F := Ideal) x1 = x1 := shapeCast_self _ _

/-- One accumulation step at an index: the running sum plus |A − B| there. -/
theorem acc_step {s : Shape} (acc A B : FVec Ideal s .f32) (i : s.Idx) (a l r : EReal)
    (ha : (acc i : EReal) = a) (hl : (A i : EReal) = l) (hr : (B i : EReal) = r) :
    (addf acc (absf (subf A B)) i : EReal) = a + max (l - r) (-(l - r)) := by
  subst ha hl hr; rfl

/-- The first three terms, from zero. -/
theorem pay6_apply (x0 : Vec Ideal S32x16x256 .f32) (x1 : Vec Ideal S32x16x128 .f32) (b : Fin 32) (r : Fin 256) (q : Fin 128) :
    (k1_pay6 (F := Ideal) x0 x1 (ix3 b r q) : EReal)
      = 0 + absDiff x0 x1 b r q 0 + absDiff x0 x1 b r q 1 + absDiff x0 x1 b r q 2 := by
  unfold k1_pay6
  exact acc_step _ _ _ _ _ _ _
    (acc_step _ _ _ _ _ _ _
      (acc_step _ _ _ _ _ _ _ Ideal.ofBits_zero_f32
        ((spreadL_apply (k1_pay4 x0) 0 0 rfl _ _ _ _ b r q).trans (congrFun (pay4_eq x0) _))
        ((spreadR_apply (k1_pay5 x1) 0 0 rfl _ _ _ _ b r q).trans (congrFun (pay5_eq x1) _)))
      ((spreadL_apply (k1_pay4 x0) 1 1 rfl _ _ _ _ b r q).trans (congrFun (pay4_eq x0) _))
      ((spreadR_apply (k1_pay5 x1) 1 1 rfl _ _ _ _ b r q).trans (congrFun (pay5_eq x1) _)))
    ((spreadL_apply (k1_pay4 x0) 2 2 rfl _ _ _ _ b r q).trans (congrFun (pay4_eq x0) _))
    ((spreadR_apply (k1_pay5 x1) 2 2 rfl _ _ _ _ b r q).trans (congrFun (pay5_eq x1) _))

/-- Feature 3 of the second operand, kept as a row. -/
theorem pay7_apply (x1 : Vec Ideal S32x16x128 .f32) (b : Fin 32) (u : Fin 1) (q : Fin 128) :
    (k1_pay7 (F := Ideal) x1 (ix3 b u q) : EReal) = x1 (ix3 b 3 q) := by
  unfold k1_pay7
  exact (keepR_apply _ _ _ b u q).trans ((rowR_apply (k1_pay5 x1) 3 3 rfl _ b 0 q).trans (congrFun (pay5_eq x1) _))

/-- Feature 3 of the first operand, spread over the columns. -/
theorem pay8_apply (x0 : Vec Ideal S32x16x256 .f32) (b : Fin 32) (r : Fin 256) (q : Fin 128) :
    (k1_pay8 (F := Ideal) x0 (ix3 b r q) : EReal) = x0 (ix3 b 3 r) := by
  unfold k1_pay8
  exact (spreadL_apply (k1_pay4 x0) 3 3 rfl _ _ _ _ b r q).trans (congrFun (pay4_eq x0) _)

/-- Terms 3 to 8 added to a running sum `a`. -/
theorem pay9_apply (v4 : FVec Ideal S32x16x256 .f32) (v6 : FVec Ideal S32x16x128 .f32) (v40 : FVec Ideal S32x256x128 .f32)
    (v46 : FVec Ideal S32x1x128 .f32) (v47 : FVec Ideal S32x256x128 .f32) (b : Fin 32) (r : Fin 256) (q : Fin 128)
    (x0 : Vec Ideal S32x16x256 .f32) (x1 : Vec Ideal S32x16x128 .f32) (a : EReal) (h4 : v4 = x0) (h6 : v6 = x1)
    (h40 : (v40 (ix3 b r q) : EReal) = a) (h46 : (v46 (ix3 b (0 : Fin 1) q) : EReal) = x1 (ix3 b 3 q))
    (h47 : (v47 (ix3 b r q) : EReal) = x0 (ix3 b 3 r)) :
    (k1_pay9 (F := Ideal) v4 v6 v40 v46 v47 (ix3 b r q) : EReal)
      = a + absDiff x0 x1 b r q 3 + absDiff x0 x1 b r q 4 + absDiff x0 x1 b r q 5 + absDiff x0 x1 b r q 6
          + absDiff x0 x1 b r q 7 + absDiff x0 x1 b r q 8 := by
  subst h4 h6
  unfold k1_pay9
  exact acc_step _ _ _ _ _ _ _
    (acc_step _ _ _ _ _ _ _
      (acc_step _ _ _ _ _ _ _
        (acc_step _ _ _ _ _ _ _
          (acc_step _ _ _ _ _ _ _
            (acc_step _ _ _ _ _ _ _ h40 h47 ((broadcastTo_a1d_acd_apply _ _ b r q).trans h46))
            (spreadL_apply v4 4 4 rfl _ _ _ _ b r q) (spreadR_apply v6 4 4 rfl _ _ _ _ b r q))
          (spreadL_apply v4 5 5 rfl _ _ _ _ b r q) (spreadR_apply v6 5 5 rfl _ _ _ _ b r q))
        (spreadL_apply v4 6 6 rfl _ _ _ _ b r q) (spreadR_apply v6 6 6 rfl _ _ _ _ b r q))
      (spreadL_apply v4 7 7 rfl _ _ _ _ b r q) (spreadR_apply v6 7 7 rfl _ _ _ _ b r q))
    (spreadL_apply v4 8 8 rfl _ _ _ _ b r q) (spreadR_apply v6 8 8 rfl _ _ _ _ b r q)

/-- Feature 9 of the first operand, cut. -/
theorem pay10_apply (v4 : FVec Ideal S32x16x256 .f32) (b : Fin 32) (u : Fin 1) (r : Fin 256) :
    (k1_pay10 (F := Ideal) v4 (ix3 b u r) : EReal) = v4 (ix3 b 9 r) := by
  unfold k1_pay10
  exact rowL_apply v4 9 9 rfl _ b u r

/-- Terms 9 to 13 added to a running sum `a`. -/
theorem pay11_apply (v4 : FVec Ideal S32x16x256 .f32) (v6 : FVec Ideal S32x16x128 .f32) (v106 : FVec Ideal S32x256x128 .f32)
    (v107 : FVec Ideal S32x1x256 .f32) (b : Fin 32) (r : Fin 256) (q : Fin 128)
    (x0 : Vec Ideal S32x16x256 .f32) (x1 : Vec Ideal S32x16x128 .f32) (a : EReal) (h4 : v4 = x0) (h6 : v6 = x1)
    (h106 : (v106 (ix3 b r q) : EReal) = a) (h107 : (v107 (ix3 b (0 : Fin 1) r) : EReal) = x0 (ix3 b 9 r)) :
    (k1_pay11 (F := Ideal) v4 v6 v106 v107 (ix3 b r q) : EReal)
      = a + absDiff x0 x1 b r q 9 + absDiff x0 x1 b r q 10 + absDiff x0 x1 b r q 11 + absDiff x0 x1 b r q 12
          + absDiff x0 x1 b r q 13 := by
  subst h4 h6
  unfold k1_pay11
  exact acc_step _ _ _ _ _ _ _
    (acc_step _ _ _ _ _ _ _
      (acc_step _ _ _ _ _ _ _
        (acc_step _ _ _ _ _ _ _
          (acc_step _ _ _ _ _ _ _ h106
            ((broadcastTo_ac1_acd_apply _ _ b r q).trans ((colL_apply v107 _ _ b r 0).trans h107))
            (spreadR_apply v6 9 9 rfl _ _ _ _ b r q))
          (spreadL_apply v4 10 10 rfl _ _ _ _ b r q) (spreadR_apply v6 10 10 rfl _ _ _ _ b r q))
        (spreadL_apply v4 11 11 rfl _ _ _ _ b r q) (spreadR_apply v6 11 11 rfl _ _ _ _ b r q))
      (spreadL_apply v4 12 12 rfl _ _ _ _ b r q) (spreadR_apply v6 12 12 rfl _ _ _ _ b r q))
    (spreadL_apply v4 13 13 rfl _ _ _ _ b r q) (spreadR_apply v6 13 13 rfl _ _ _ _ b r q)

/-- Feature 14 of the first operand, as a column. -/
theorem pay12_apply (v4 : FVec Ideal S32x16x256 .f32) (b : Fin 32) (r : Fin 256) (u : Fin 1) :
    (k1_pay12 (F := Ideal) v4 (ix3 b r u) : EReal) = v4 (ix3 b 14 r) := by
  unfold k1_pay12
  exact (colL_apply _ _ _ b r u).trans (rowL_apply v4 14 14 rfl _ b 0 r)

/-- Feature 14 of the second operand, kept as a row. -/
theorem pay13_apply (v6 : FVec Ideal S32x16x128 .f32) (b : Fin 32) (u : Fin 1) (q : Fin 128) :
    (k1_pay13 (F := Ideal) v6 (ix3 b u q) : EReal) = v6 (ix3 b 14 q) := by
  unfold k1_pay13
  exact (keepR_apply _ _ _ b u q).trans (rowR_apply v6 14 14 rfl _ b 0 q)

/-- The last two terms, the exponential of the negated distance, its sum over the 128 columns, added to the
    accumulator's entry. `d q` is the running sum of the first fourteen terms at column `q`. -/
theorem pay1_apply (v4 : FVec Ideal S32x16x256 .f32) (v6 : FVec Ideal S32x16x128 .f32) (v161 : FVec Ideal S32x256x128 .f32)
    (v166 : FVec Ideal S32x256x1 .f32) (v167 : FVec Ideal S32x1x128 .f32) (v187 : Vec Ideal S32x256 .f32)
    (b : Fin 32) (r : Fin 256) (x0 : Vec Ideal S32x16x256 .f32) (x1 : Vec Ideal S32x16x128 .f32) (d : Fin 128 → EReal)
    (h4 : v4 = x0) (h6 : v6 = x1) (h161 : ∀ q : Fin 128, (v161 (ix3 b r q) : EReal) = d q)
    (h166 : (v166 (ix3 b r (0 : Fin 1)) : EReal) = x0 (ix3 b 14 r))
    (h167 : ∀ q : Fin 128, (v167 (ix3 b (0 : Fin 1) q) : EReal) = x1 (ix3 b 14 q)) :
    (k1_pay1 (F := Ideal) v4 v6 v161 v166 v167 v187 (ix2 b r) : EReal)
      = (v187 (ix2 b r) : EReal)
        + ∑ q : Fin 128, Ideal.exp (0 - (d q + absDiff x0 x1 b r q 14 + absDiff x0 x1 b r q 15)) := by
  subst h4 h6
  unfold k1_pay1
  refine (congrFun (shapeCast_self _ _) _).trans ?_
  refine congrArg (fun t : EReal => (v187 (ix2 b r) : EReal) + t) ?_
  refine (Ideal.multiReduction_add_single _ _ _ _ _ (ix2 b r)).trans ?_
  refine Finset.sum_congr rfl fun q _ => ?_
  refine (congrArg _ (lift_ix2 _ b r q)).trans ?_
  refine congrArg Ideal.exp ?_
  refine congrArg₂ (fun s t : EReal => s - t) Ideal.ofBits_zero_f32 ?_
  exact acc_step _ _ _ _ _ _ _
    (acc_step _ _ _ _ _ _ _ (h161 q)
      ((broadcastTo_ac1_acd_apply _ _ b r q).trans h166)
      ((broadcastTo_a1d_acd_apply _ _ b r q).trans (h167 q)))
    (spreadL_apply v4 15 15 rfl _ _ _ _ b r q) (spreadR_apply v6 15 15 rfl _ _ _ _ b r q)

/-- The accumulator is reset to zero. -/
theorem zero1_apply (p : S32x256.Idx) : (zero1 (F := Ideal) p : EReal) = 0 := by
  unfold zero1 k1_pay3
  exact (congrFun (shapeCast_self _ _) p).trans Ideal.ofBits_zero_f32

/-- The final block is the accumulator less one (the constant kept as its binary word). -/
theorem fin1_apply (s : Vec Ideal S32x256 .f32) (p : S32x256.Idx) :
    (fin1 (F := Ideal) s p : EReal) = (s p : EReal) - Ideal.ofBits .f32 0x3F800000#32 := rfl

/-- One point's update at (group b, row r). -/
theorem step1_apply (x0 : Vec Ideal S32x16x256 .f32) (x1 : Vec Ideal S32x16x128 .f32) (prev : Vec Ideal S32x256 .f32)
    (b : Fin 32) (r : Fin 256) :
    (step1 (F := Ideal) x0 x1 prev (ix2 b r) : EReal)
      = (prev (ix2 b r) : EReal) + ∑ q : Fin 128, Ideal.exp (-(∑ c : Fin 16,
          max ((x0 (ix3 b c r) : EReal) - (x1 (ix3 b c q) : EReal)) (-((x0 (ix3 b c r) : EReal) - (x1 (ix3 b c q) : EReal))))) := by
  unfold step1
  refine (pay1_apply _ _ _ _ _ prev b r x0 x1
    (fun q => 0 + absDiff x0 x1 b r q 0 + absDiff x0 x1 b r q 1 + absDiff x0 x1 b r q 2 + absDiff x0 x1 b r q 3
      + absDiff x0 x1 b r q 4 + absDiff x0 x1 b r q 5 + absDiff x0 x1 b r q 6 + absDiff x0 x1 b r q 7
      + absDiff x0 x1 b r q 8 + absDiff x0 x1 b r q 9 + absDiff x0 x1 b r q 10 + absDiff x0 x1 b r q 11
      + absDiff x0 x1 b r q 12 + absDiff x0 x1 b r q 13)
    (pay4_eq x0) (pay5_eq x1)
    (fun q => pay11_apply _ _ _ _ b r q x0 x1 _ (pay4_eq x0) (pay5_eq x1)
      (pay9_apply _ _ _ _ _ b r q x0 x1 _ (pay4_eq x0) (pay5_eq x1) (pay6_apply x0 x1 b r q)
        (pay7_apply x1 b 0 q) (pay8_apply x0 b r q))
      ((pay10_apply _ b 0 r).trans (congrFun (pay4_eq x0) _)))
    ((pay12_apply _ b r 0).trans (congrFun (pay4_eq x0) _))
    (fun q => (pay13_apply _ b 0 q).trans (congrFun (pay5_eq x1) _))).trans ?_
  refine congrArg (fun t : EReal => (prev (ix2 b r) : EReal) + t) (Finset.sum_congr rfl fun q _ => ?_)
  refine congrArg Ideal.exp ((zero_sub _).trans (congrArg Neg.neg ?_))
  exact acc16_eq_sum (absDiff x0 x1 b r q)

end Cert.KernelIdeal.HandValue

end
-- ==== Proof.KValue0.lean ====
/-
  The first call's output block at the ideal instance, read at an entry: the (i, n) entry of the product of
  the two operand blocks is Σ_k x0[i,k] · x1[k,n] over the extended reals (a matrix product into a zero
  accumulator is the plain sum; the 16-bit operands are extended reals like any float).
-/
import proofs.«142550_j42949672961129_1_alg».proof.Proof.KernelIdeal.Region0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.ValueIdx

/-- Both offsets of the rectangle that covers the whole buffer are zero. -/
theorem offsets_zero : (![0, 0] : Fin 2 → Nat) = fun _ => 0 :=
  funext fun a => match a with | ⟨0, _⟩ => rfl | ⟨1, _⟩ => rfl

/-- One store over the whole buffer leaves its payload, and a load through the whole rectangle reads the
    operand as it is: the block the body leaves is the payload of the two operands themselves. -/
theorem prod0_eq_payload (x0 x1 : Vec Ideal S512x512 .bf16) :
    prod0 (F := Ideal) x0 x1 = k0_pay1 (F := Ideal) x0 x1 := by
  unfold prod0
  rw [View.canon_unit_zero offsets_zero]
  simp only [View.ld_unit_zero (S := S512x512) offsets_zero]

/-- The left operand's index at output index j and contraction index q: its row is j's row, -/
theorem lhs_axis0 (j : S512x512.Idx) (q : dot_S512x512_S512x512_S512x512_1_0_0_1_n_n.contr.Idx) :
    (dot_S512x512_S512x512_S512x512_1_0_0_1_n_n.lhsIdx j q 0).val = (j 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- and its column is the contraction coordinate. -/
theorem lhs_axis1 (j : S512x512.Idx) (q : dot_S512x512_S512x512_S512x512_1_0_0_1_n_n.contr.Idx) :
    (dot_S512x512_S512x512_S512x512_1_0_0_1_n_n.lhsIdx j q 1).val = (q ⟨0, by decide⟩).val :=
  dot_S512x512_S512x512_S512x512_1_0_0_1_n_n.lhsIdx_val_of_single rfl j q
/-- The right operand's index: its row is the contraction coordinate, -/
theorem rhs_axis0 (j : S512x512.Idx) (q : dot_S512x512_S512x512_S512x512_1_0_0_1_n_n.contr.Idx) :
    (dot_S512x512_S512x512_S512x512_1_0_0_1_n_n.rhsIdx j q 0).val = (q ⟨0, by decide⟩).val :=
  dot_S512x512_S512x512_S512x512_1_0_0_1_n_n.rhsIdx_val_of_single rfl j q
/-- and its column is j's column. -/
theorem rhs_axis1 (j : S512x512.Idx) (q : dot_S512x512_S512x512_S512x512_1_0_0_1_n_n.contr.Idx) :
    (dot_S512x512_S512x512_S512x512_1_0_0_1_n_n.rhsIdx j q 1).val = (j 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The payload at entry (i, n): the two shape casts keep the shape, so they are the identity, and the
    product into the zero accumulator is the sum over the one contracted axis. -/
theorem payload_apply (x0 x1 : FVec Ideal S512x512 .bf16) (i n : Fin 512) :
    k0_pay1 (F := Ideal) x0 x1 (ix2 i n) = ∑ k : Fin 512, x0 (ix2 i k) * x1 (ix2 k n) := by
  unfold k0_pay1
  simp only [shapeCast_self]
  refine (Ideal.matmul_constant_zero_apply dot_S512x512_S512x512_S512x512_1_0_0_1_n_n none x0 x1 (ix2 i n)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 i n) ((contrEquiv1 dot_S512x512_S512x512_S512x512_1_0_0_1_n_n 512 rfl rfl).symm k) = ix2 i k :=
    funext fun a => Fin.ext (by
      match a with
      | ⟨0, _⟩ => exact lhs_axis0 _ _
      | ⟨1, _⟩ => exact (lhs_axis1 _ _).trans hk)
  have er : dot_S512x512_S512x512_S512x512_1_0_0_1_n_n.rhsIdx (ix2 i n) ((contrEquiv1 dot_S512x512_S512x512_S512x512_1_0_0_1_n_n 512 rfl rfl).symm k) = ix2 k n :=
    funext fun a => Fin.ext (by
      match a with
      | ⟨0, _⟩ => exact (rhs_axis0 _ _).trans hk
      | ⟨1, _⟩ => exact rhs_axis1 _ _)
  rw [el, er]

/-- The product block at entry (i, n). -/
theorem prod0_apply (x0 x1 : Vec Ideal S512x512 .bf16) (i n : Fin 512) :
    (prod0 (F := Ideal) x0 x1 (ix2 i n) : EReal) = ∑ k : Fin 512, (x0 (ix2 i k) : EReal) * (x1 (ix2 k n) : EReal) := by
  rw [prod0_eq_payload]
  exact payload_apply x0 x1 i n

end Cert.KernelIdeal.HandValue

end
-- ==== Proof.Spec.lean ====
/-
  What both programs compute, entry by entry, over the extended reals.
  With x the 512 × 512 input and T the 512 × 32 × 16 tensor:
    M n b c   = Σ_k x[n,k] · T[k,b,c]                       (the projected features)
    D i j b   = Σ_c |M i b c − M j b c|                     (L1 distance of rows i and j within group b)
    Oib i b   = Σ_j exp (−D i j b) − 1                      (row i's similarity total in group b, less the self term)
  The result is x with the 512 × 32 array of the Oib appended along the second axis.
  The absolute value is written max a (−a), as the ideal instance reads it; the constant 1 is kept as its
  binary word, which both programs print alike.
-/
import Idealize.ShloMosaic.PureOps.Ideal
import Idealize.ShloMosaic.Lib.ValueIdx

noncomputable section

namespace Cert.Spec

open Idealize.ShloMosaic Idealize.ShloMosaic.ValueIdx

/-- Row n of x against column (b, c) of T. -/
def M (x : (⟨2, ![512, 512]⟩ : Shape).Idx → EReal) (T : (⟨3, ![512, 32, 16]⟩ : Shape).Idx → EReal)
    (n : Fin 512) (b : Fin 32) (c : Fin 16) : EReal :=
  ∑ k : Fin 512, x (ix2 n k) * T (ix3 k b c)

/-- The L1 distance between the projected rows i and j within group b. -/
def D (x : (⟨2, ![512, 512]⟩ : Shape).Idx → EReal) (T : (⟨3, ![512, 32, 16]⟩ : Shape).Idx → EReal)
    (i j : Fin 512) (b : Fin 32) : EReal :=
  ∑ c : Fin 16, max (M x T i b c - M x T j b c) (-(M x T i b c - M x T j b c))

/-- Row i's total of exp (−distance) over all rows j, within group b, less one (the self term exp 0). -/
def Oib (x : (⟨2, ![512, 512]⟩ : Shape).Idx → EReal) (T : (⟨3, ![512, 32, 16]⟩ : Shape).Idx → EReal)
    (i : Fin 512) (b : Fin 32) : EReal :=
  (∑ j : Fin 512, Ideal.exp (-(D x T i j b))) - Ideal.ofBits .f32 0x3F800000#32

/-- The 512 × 32 array of the Oib: what is appended to x. -/
def Oarr (x : (⟨2, ![512, 512]⟩ : Shape).Idx → EReal) (T : (⟨3, ![512, 32, 16]⟩ : Shape).Idx → EReal) :
    (⟨2, ![512, 32]⟩ : Shape).Idx → EReal :=
  fun p => Oib x T (p 0) (p 1)

theorem Oarr_ix2 (x : (⟨2, ![512, 512]⟩ : Shape).Idx → EReal) (T : (⟨3, ![512, 32, 16]⟩ : Shape).Idx → EReal)
    (i : Fin 512) (b : Fin 32) : Oarr x T (ix2 i b) = Oib x T i b := rfl

end Cert.Spec

end
-- ==== Proof.KFeat.lean ====
/-
  The array the second call reads: the first call's product, reshaped to 512 × 32 × 16 and transposed to
  32 × 16 × 512. At the ideal instance its entry (group b, feature cc, row n) is the specification's
  M n b cc = Σ_k x[n,k] · T[k,b,cc]: the two conversions to a 16-bit format before the first call are the
  identity, the first call leaves the plain product, and column 16·b + cc of the flattened T is T[·,b,cc].
-/
import proofs.«142550_j42949672961129_1_alg».proof.Proof.KernelIdeal.Fold
import proofs.«142550_j42949672961129_1_alg».proof.Proof.KBlocks
import proofs.«142550_j42949672961129_1_alg».proof.Proof.KValue0
import proofs.«142550_j42949672961129_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ)

/-- Column 16·b + cc of the flattened 512 × 512 array. -/
def featCol (b : Fin 32) (cc : Fin 16) : Fin 512 := ⟨16 * b.val + cc.val, by omega⟩

/-- After the second host stretch the transposed array is the transpose of the reshape of the first call's
    output array. -/
theorem E3_v5 (c : Dev nD) :
    (E3 (F := Ideal) m c main_v5 : S32x16x512.Idx → EReal)
      = transpose S32x16x512 [1, 2, 0]
          (shapeCast S512x32x16 (W2 (F := Ideal) m c (Proc.devRef .tc main_v3)) shapeCasts_S512x512_S512x32x16)
          transposes_S512x32x16_S32x16x512_1_2_0 := by
  show StableHlo.after hostOps1 (W2 m c) (Proc.devRef .tc main_v5) = _
  after_results
  rfl

/-- The first call's left operand is the first argument, its change of format being the identity. -/
theorem E1_v1 (c : Dev nD) :
    (E1 (F := Ideal) m c main_v1 : S512x512.Idx → EReal)
      = (truncf (F := Ideal) (s := S512x512) .bf16 (m ((c : Thread nD τ).loc main_arg0)) bitsLt_bf16_f32 : FVec Ideal S512x512 .bf16) := by
  show StableHlo.after hostOps0 (W0 m c) (Proc.devRef .tc main_v1) = _
  after_results

/-- The first call's right operand is the second argument flattened to 512 × 512. -/
theorem E1_v2 (c : Dev nD) :
    (E1 (F := Ideal) m c main_v2 : S512x512.Idx → EReal)
      = (truncf (F := Ideal) (s := S512x512) .bf16
          (shapeCast S512x512 (m ((c : Thread nD τ).loc main_arg1)) shapeCasts_S512x32x16_S512x512)
          bitsLt_bf16_f32 : FVec Ideal S512x512 .bf16) := by
  show StableHlo.after hostOps0 (W0 m c) (Proc.devRef .tc main_v2) = _
  after_results
  rfl

/-- The first call's output array after the call is the product of its two operands. -/
theorem W2_v3 (c : Dev nD) :
    W2 (F := Ideal) m c (Proc.devRef .tc main_v3) = prod0 (E1 m c main_v1) (E1 m c main_v2) :=
  (W2_arr m c 2).trans (arr0_final (E1 m) c)

/-- The transposed features at (group b, feature cc, row n). -/
theorem featT_apply (c : Dev nD) (b : Fin 32) (cc : Fin 16) (n : Fin 512) :
    (E3 (F := Ideal) m c main_v5 (ix3 b cc n) : EReal)
      = Cert.Spec.M (m ((c : Thread nD τ).loc main_arg0)) (m ((c : Thread nD τ).loc main_arg1)) n b cc := by
  refine (congrFun (E3_v5 m c) (ix3 b cc n)).trans ?_
  -- the transpose at (b, cc, n) reads the reshape at (n, b, cc)
  refine (transpose_apply _ _ _ (ix3 b cc n) (ix3 n b cc)
    fun a => match a with | ⟨0, _⟩ => rfl | ⟨1, _⟩ => rfl | ⟨2, _⟩ => rfl).trans ?_
  -- the reshape at (n, b, cc) reads the product at (n, 16·b + cc)
  refine (shapeCast_apply _ _ (ix3 n b cc) (ix2 n (featCol b cc)) (by
    rw [Shape.rowMajor_val_two, Shape.rowMajor_val_three]
    show n.val * 512 + (16 * b.val + cc.val) = (n.val * 32 + b.val) * 16 + cc.val
    omega)).trans ?_
  rw [W2_v3 m c]
  refine (prod0_apply _ _ n (featCol b cc)).trans ?_
  unfold Cert.Spec.M
  refine Finset.sum_congr rfl fun k _ => ?_
  rw [E1_v1 m c, E1_v2 m c]
  congr 1
  -- the flattened T at (k, 16·b + cc) is T at (k, b, cc)
  exact shapeCast_apply _ _ (ix2 k (featCol b cc)) (ix3 k b cc) (by
    rw [Shape.rowMajor_val_two, Shape.rowMajor_val_three]
    show (k.val * 32 + b.val) * 16 + cc.val = k.val * 512 + (16 * b.val + cc.val)
    omega)

end Cert.KernelIdeal.HandValue

end
-- ==== Proof.KFinal.lean ====
/-
  The kernel program's result buffer at the ideal instance: x with the specification's 512 × 32 array
  appended along the second axis. The second call's output, transposed, at (row i, group b): the finished
  accumulator of i's row tile less one; the accumulator is four updates from zero, one per column tile j,
  each adding Σ_q exp(−Σ_c |M i b c − M (128·j+q) b c|); the four tiles' sums are the sum over all 512 rows
  (addition on the extended reals is associative and commutative, and the leading zeros vanish).
-/
import proofs.«142550_j42949672961129_1_alg».proof.Proof.KernelIdeal.Fold
import proofs.«142550_j42949672961129_1_alg».proof.Proof.KBlocks
import proofs.«142550_j42949672961129_1_alg».proof.Proof.KValue1
import proofs.«142550_j42949672961129_1_alg».proof.Proof.KFeat
import proofs.«142550_j42949672961129_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws
import Mathlib.Algebra.BigOperators.Fin
import Mathlib.Data.EReal.Basic

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx

/-! ## The four column tiles cover all 512 rows -/

/-- The four tiles of 128 cover Fin 512: their sums, added one after another from zero, are the whole sum.
    Only associativity and the neutral zero are used, so the statement holds at infinite terms too. -/
theorem sum_tiles (g : Fin 512 → EReal) :
    0 + (∑ q : Fin 128, g ⟨128 * 0 + q.val, by omega⟩) + (∑ q : Fin 128, g ⟨128 * 1 + q.val, by omega⟩)
      + (∑ q : Fin 128, g ⟨128 * 2 + q.val, by omega⟩) + (∑ q : Fin 128, g ⟨128 * 3 + q.val, by omega⟩)
      = ∑ n : Fin 512, g n := by
  have e1 : ∑ n : Fin 512, g n
      = (∑ q : Fin 128, g ⟨q.val, by omega⟩) + ∑ q : Fin 384, g ⟨128 + q.val, by omega⟩ :=
    Fin.sum_univ_add (a := 128) (b := 384) g
  have e2 : ∑ q : Fin 384, g ⟨128 + q.val, by omega⟩
      = (∑ q : Fin 128, g ⟨128 + q.val, by omega⟩) + ∑ q : Fin 256, g ⟨128 + (128 + q.val), by omega⟩ :=
    Fin.sum_univ_add (a := 128) (b := 256) (fun q : Fin 384 => g ⟨128 + q.val, by omega⟩)
  have e3 : ∑ q : Fin 256, g ⟨128 + (128 + q.val), by omega⟩
      = (∑ q : Fin 128, g ⟨128 + (128 + q.val), by omega⟩) + ∑ q : Fin 128, g ⟨128 + (128 + (128 + q.val)), by omega⟩ :=
    Fin.sum_univ_add (a := 128) (b := 128) (fun q : Fin 256 => g ⟨128 + (128 + q.val), by omega⟩)
  rw [e1, e2, e3, zero_add, add_assoc, add_assoc]
  refine congrArg₂ (· + ·) (Finset.sum_congr rfl fun q _ => congrArg g (Fin.ext ?_)) (congrArg₂ (· + ·)
    (Finset.sum_congr rfl fun q _ => congrArg g (Fin.ext ?_)) (congrArg₂ (· + ·)
    (Finset.sum_congr rfl fun q _ => congrArg g (Fin.ext ?_)) (Finset.sum_congr rfl fun q _ => congrArg g (Fin.ext ?_))))
  · show 128 * 0 + q.val = q.val; omega
  · show 128 * 1 + q.val = 128 + q.val; omega
  · show 128 * 2 + q.val = 128 + (128 + q.val); omega
  · show 128 * 3 + q.val = 128 + (128 + (128 + q.val)); omega

/-- Point n = 4·(i / 256) + k of the grid pairs i's row tile with column tile k: at i's row within the tile
    its first operand's row is i itself, and its second operand's column q is row 128·k + q. -/
theorem tile_term (x : (⟨2, ![512, 512]⟩ : Shape).Idx → EReal) (T : (⟨3, ![512, 32, 16]⟩ : Shape).Idx → EReal)
    (i : Fin 512) (n : ℕ) (h : n < cfg1.N) (k : ℕ) (hk : k < 4) (hn : n = 4 * (i.val / 256) + k)
    (q : Fin 128) (b : Fin 32) :
    Ideal.exp (-(Cert.Spec.D x T (rowOf ⟨n, h⟩ (⟨i.val % 256, Nat.mod_lt _ (by norm_num)⟩ : Fin 256)) (colOf ⟨n, h⟩ q) b))
      = Ideal.exp (-(Cert.Spec.D x T i (⟨128 * k + q.val, by omega⟩ : Fin 512) b)) := by
  have e1 : rowOf ⟨n, h⟩ (⟨i.val % 256, Nat.mod_lt _ (by norm_num)⟩ : Fin 256) = i :=
    Fin.ext (by show 256 * (n / 4) + i.val % 256 = i.val; omega)
  have e2 : colOf ⟨n, h⟩ q = (⟨128 * k + q.val, by omega⟩ : Fin 512) :=
    Fin.ext (by show 128 * (n % 4) + q.val = 128 * k + q.val; omega)
  rw [e1, e2]

variable (m : (ℓ : Loc nD τ sig) → Buf (Elt Ideal) ℓ)

/-! ## What no item wrote -/

/-- The first argument's buffer is as launched when the last host stretch begins. -/
theorem W4_arg0 (c : Dev nD) :
    W4 (F := Ideal) m c (Proc.devRef .tc main_arg0) = m ((c : Thread nD τ).loc main_arg0) :=
  (W4_of_ne m c main_arg0 (by decide)).trans <|
  (StableHlo.after_of_writes_sub hostOps1 _ hostOps1_writes (r := main_arg0) (by decide)).trans <|
  (W2_of_ne m c main_arg0 (by decide)).trans <|
  (StableHlo.after_of_writes_sub hostOps0 _ hostOps0_writes (r := main_arg0) (by decide)).trans rfl

/-! ## The second call's operand blocks are the projected features -/

/-- The first operand's block at a point, at (group b, feature cc, row r): M at row 256·(t/4) + r. -/
theorem x0_at (c : Dev nD) (t : Fin cfg1.N) (b : Fin 32) (cc : Fin 16) (r : Fin 256) :
    (iblk1 (E3 (F := Ideal) m) c 0 t (ix3 b cc r) : EReal)
      = Cert.Spec.M (m ((c : Thread nD τ).loc main_arg0)) (m ((c : Thread nD τ).loc main_arg1)) (rowOf t r) b cc :=
  (iblk1_0_apply (E3 (F := Ideal) m) c t b cc r).trans (featT_apply m c b cc (rowOf t r))

/-- The second operand's block at a point, at (group b, feature cc, column q): M at row 128·(t%4) + q. -/
theorem x1_at (c : Dev nD) (t : Fin cfg1.N) (b : Fin 32) (cc : Fin 16) (q : Fin 128) :
    (iblk1 (E3 (F := Ideal) m) c 1 t (ix3 b cc q) : EReal)
      = Cert.Spec.M (m ((c : Thread nD τ).loc main_arg0)) (m ((c : Thread nD τ).loc main_arg1)) (colOf t q) b cc :=
  (iblk1_1_apply (E3 (F := Ideal) m) c t b cc q).trans (featT_apply m c b cc (colOf t q))

/-- One point's update at (group b, row r): the 128 columns' exp(−distance) are added. -/
theorem step_at (c : Dev nD) (t : Fin cfg1.N) (prev : Vec Ideal S32x256 .f32) (b : Fin 32) (r : Fin 256) :
    (step1 (F := Ideal) (iblk1 (E3 (F := Ideal) m) c 0 t) (iblk1 (E3 (F := Ideal) m) c 1 t) prev (ix2 b r) : EReal)
      = (prev (ix2 b r) : EReal)
        + ∑ q : Fin 128, Ideal.exp (-(Cert.Spec.D (m ((c : Thread nD τ).loc main_arg0)) (m ((c : Thread nD τ).loc main_arg1)) (rowOf t r) (colOf t q) b)) := by
  unfold Cert.Spec.D
  refine (step1_apply (iblk1 (E3 (F := Ideal) m) c 0 t) (iblk1 (E3 (F := Ideal) m) c 1 t) prev b r).trans ?_
  refine congrArg (fun z : EReal => (prev (ix2 b r) : EReal) + z) (Finset.sum_congr rfl fun q _ => ?_)
  refine congrArg (fun z : EReal => Ideal.exp (-z)) (Finset.sum_congr rfl fun cc _ => ?_)
  rw [x0_at m c t b cc r, x1_at m c t b cc q]

/-! ## The accumulator over one row tile's four points -/

/-- At a point that opens a row tile (number ≡ 0 mod 4) the accumulator is zero plus that point's sum. -/
theorem acc_reset_at (c : Dev nD) (n : ℕ) (h : n < cfg1.N) (h0 : n % 4 = 0) (b : Fin 32) (r : Fin 256) :
    (acc1 (E3 (F := Ideal) m) c n h (ix2 b r) : EReal)
      = 0 + ∑ q : Fin 128, Ideal.exp (-(Cert.Spec.D (m ((c : Thread nD τ).loc main_arg0)) (m ((c : Thread nD τ).loc main_arg1)) (rowOf ⟨n, h⟩ r) (colOf ⟨n, h⟩ q) b)) := by
  have e : acc1 (E3 (F := Ideal) m) c n h
      = step1 (iblk1 (E3 (F := Ideal) m) c 0 ⟨n, h⟩) (iblk1 (E3 (F := Ideal) m) c 1 ⟨n, h⟩) zero1 :=
    acc1_reset (E3 (F := Ideal) m) c ⟨n, h⟩ h0
  rw [e, step_at m c ⟨n, h⟩ zero1 b r, zero1_apply]

/-- At any other point the accumulator is the previous point's plus this point's sum. -/
theorem acc_cont_at (c : Dev nD) (n : ℕ) (h : n + 1 < cfg1.N) (h0 : ¬(n + 1) % 4 = 0) (b : Fin 32) (r : Fin 256) :
    (acc1 (E3 (F := Ideal) m) c (n + 1) h (ix2 b r) : EReal)
      = (acc1 (E3 (F := Ideal) m) c n (Nat.lt_of_succ_lt h) (ix2 b r) : EReal)
        + ∑ q : Fin 128, Ideal.exp (-(Cert.Spec.D (m ((c : Thread nD τ).loc main_arg0)) (m ((c : Thread nD τ).loc main_arg1)) (rowOf ⟨n + 1, h⟩ r) (colOf ⟨n + 1, h⟩ q) b)) := by
  rw [acc1_succ (E3 (F := Ideal) m) c n h, if_neg h0,
    step_at m c ⟨n + 1, h⟩ (acc1 (E3 (F := Ideal) m) c n (Nat.lt_of_succ_lt h)) b r]

/-- The finished accumulator of i's row tile, at i's row within it: the sum over all 512 rows j of
    exp(−D i j b). -/
theorem acc_last (c : Dev nD) (b : Fin 32) (i : Fin 512) :
    (acc1 (E3 (F := Ideal) m) c (lastOf i).val (lastOf i).isLt
        (ix2 b (⟨i.val % 256, Nat.mod_lt _ (by norm_num)⟩ : Fin 256)) : EReal)
      = ∑ j : Fin 512, Ideal.exp (-(Cert.Spec.D (m ((c : Thread nD τ).loc main_arg0)) (m ((c : Thread nD τ).loc main_arg1)) i j b)) := by
  have h8 : cfg1.N = 8 := N_1
  have hi := i.isLt
  have a3 := acc_cont_at m c (4 * (i.val / 256) + 2) (by omega) (by omega) b (⟨i.val % 256, Nat.mod_lt _ (by norm_num)⟩ : Fin 256)
  have a2 := acc_cont_at m c (4 * (i.val / 256) + 1) (by omega) (by omega) b (⟨i.val % 256, Nat.mod_lt _ (by norm_num)⟩ : Fin 256)
  have a1 := acc_cont_at m c (4 * (i.val / 256)) (by omega) (by omega) b (⟨i.val % 256, Nat.mod_lt _ (by norm_num)⟩ : Fin 256)
  have a0 := acc_reset_at m c (4 * (i.val / 256)) (by omega) (by omega) b (⟨i.val % 256, Nat.mod_lt _ (by norm_num)⟩ : Fin 256)
  show (acc1 (E3 (F := Ideal) m) c (4 * (i.val / 256) + 2 + 1) _ (ix2 b (⟨i.val % 256, _⟩ : Fin 256)) : EReal) = _
  rw [a3, a2, a1, a0, ← sum_tiles (fun j : Fin 512 => Ideal.exp (-(Cert.Spec.D (m ((c : Thread nD τ).loc main_arg0)) (m ((c : Thread nD τ).loc main_arg1)) i j b)))]
  refine congrArg₂ (· + ·) (congrArg₂ (· + ·) (congrArg₂ (· + ·) (congrArg (fun z : EReal => 0 + z)
    (Finset.sum_congr rfl fun q _ => ?_)) (Finset.sum_congr rfl fun q _ => ?_))
    (Finset.sum_congr rfl fun q _ => ?_)) (Finset.sum_congr rfl fun q _ => ?_)
  · exact tile_term _ _ i _ _ 0 (by omega) (by omega) q b
  · exact tile_term _ _ i _ _ 1 (by omega) (by omega) q b
  · exact tile_term _ _ i _ _ 2 (by omega) (by omega) q b
  · exact tile_term _ _ i _ _ 3 (by omega) (by omega) q b

/-! ## The second call's output, and the result -/

/-- The second call's output array at (group b, row i) is the specification's entry (i, b). -/
theorem out_at (c : Dev nD) (i : Fin 512) (b : Fin 32) :
    (W4 (F := Ideal) m c (Proc.devRef .tc main_v6) (ix2 b i) : EReal)
      = Cert.Spec.Oib (m ((c : Thread nD τ).loc main_arg0)) (m ((c : Thread nD τ).loc main_arg1)) i b := by
  refine (congrFun (W4_out (F := Ideal) m c) (ix2 b i)).trans ?_
  refine (arr1_final_apply (E3 (F := Ideal) m) c b i).trans ?_
  refine (fin1_apply _ _).trans ?_
  unfold Cert.Spec.Oib
  exact congrArg (fun z : EReal => z - Ideal.ofBits .f32 0x3F800000#32) (acc_last m c b i)

/-- The result buffer after the last host stretch. -/
theorem kernel_value (c : Dev nD) :
    W5 (F := Ideal) m c (Proc.devRef .tc main_v8)
      = concatenate S512x544 1 [⟨S512x512, m ((c : Thread nD τ).loc main_arg0)⟩,
          ⟨S512x32, Cert.Spec.Oarr (m ((c : Thread nD τ).loc main_arg0)) (m ((c : Thread nD τ).loc main_arg1))⟩]
          concatenates_S512x512_S512x32_S512x544_d1 := by
  have hO : transpose S512x32 [1, 0] (W4 (F := Ideal) m c (Proc.devRef .tc main_v6)) transposes_S32x512_S512x32_1_0
      = Cert.Spec.Oarr (m ((c : Thread nD τ).loc main_arg0)) (m ((c : Thread nD τ).loc main_arg1)) := by
    funext p
    obtain ⟨i, b, rfl⟩ : ∃ (i : Fin 512) (b : Fin 32), p = ix2 i b := ⟨p 0, p 1, eq_ix2 p⟩
    refine (transpose_apply [1, 0] _ transposes_S32x512_S512x32_1_0 (ix2 i b) (ix2 b i) (fun a => ?_)).trans
      (out_at m c i b)
    match a with
    | ⟨0, _⟩ => rfl
    | ⟨1, _⟩ => rfl
  show StableHlo.after hostOps2 (W4 m c) (Proc.devRef .tc main_v8) = _
  after_results
  rw [W4_arg0 m c, hO]

end Cert.KernelIdeal.HandValue

end
-- ==== Proof.RefValue.lean ====
/-
  The reference program's last float stage, read at an entry: it is the specification's Oib.
  The stages are read outermost first. The 512 × 512 product is reshaped to 512 × 32 × 16, so its
  entry (n, b, c) is the product's entry in row n and column 16·b + c, and that column of the reshaped
  tensor is T's entry (k, b, c). The two broadcasts put row i at position (i, j, b, c) of one operand
  and row j at the same position of the other; their difference's absolute value is summed over c
  (from the zero word, which is 0), negated, exponentiated, summed over j (again from 0), and the
  word of the constant one is taken away.
-/
import proofs.«142550_j42949672961129_1_alg».proof.Proof.Gen.ReferenceIdeal.Run
import proofs.«142550_j42949672961129_1_alg».proof.Proof.Gen.ReferenceIdeal.Read
import proofs.«142550_j42949672961129_1_alg».proof.Proof.Spec
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Read

/-- Column 16·b + c of a 512-wide row, as a coordinate. -/
abbrev col (b : Fin 32) (c : Fin 16) : Fin 512 := ⟨b.val * 16 + c.val, by have := b.isLt; have := c.isLt; omega⟩

/-! ### The composed index functions at coordinates -/

/-- Entry (n, b, c) of the 512 × 32 × 16 reshape lies in row n, column 16·b + c of the 512 × 512 array. -/
theorem idx_v2 (n : Fin 512) (b : Fin 32) (c : Fin 16) : idx_main_v2 (ix3 n b c) = ix2 n (col b c) :=
  funext fun a => Fin.ext (by
    have hn := n.isLt; have hb := b.isLt; have hc := c.isLt
    match a with
    | ⟨0, _⟩ => show ((n.val * 32 + b.val) * 16 + c.val) / 512 = n.val; omega
    | ⟨1, _⟩ => show ((n.val * 32 + b.val) * 16 + c.val) % 512 = b.val * 16 + c.val; omega)

/-- Row k, column 16·b + c of the reshaped tensor is the tensor's entry (k, b, c). -/
theorem idx_v0 (k : Fin 512) (b : Fin 32) (c : Fin 16) : idx_main_v0 (ix2 k (col b c)) = ix3 k b c :=
  funext fun a => Fin.ext (by
    have hk := k.isLt; have hb := b.isLt; have hc := c.isLt
    match a with
    | ⟨0, _⟩ => show (k.val * 512 + (b.val * 16 + c.val)) / 512 = k.val; omega
    | ⟨1, _⟩ => show (k.val * 512 + (b.val * 16 + c.val)) / 16 % 32 = b.val; omega
    | ⟨2, _⟩ => show (k.val * 512 + (b.val * 16 + c.val)) % 16 = c.val; omega)

theorem lidx_v1 (n m k : Fin 512) : lidx_main_v1 (ix2 n m) k = ix2 n k :=
  funext fun a => Fin.ext (by match a with | ⟨0, _⟩ => rfl | ⟨1, _⟩ => rfl)

theorem ridx_v1 (n m k : Fin 512) : ridx_main_v1 (ix2 n m) k = ix2 k m :=
  funext fun a => Fin.ext (by match a with | ⟨0, _⟩ => rfl | ⟨1, _⟩ => rfl)

theorem idx_v9 (i j : Fin 512) (b : Fin 32) (c : Fin 16) : idx_main_v9 (ix3 i j b) c = ix4 i j b c :=
  funext fun a => Fin.ext (by match a with | ⟨0, _⟩ => rfl | ⟨1, _⟩ => rfl | ⟨2, _⟩ => rfl | ⟨3, _⟩ => rfl)

theorem idx_v5 (i j : Fin 512) (b : Fin 32) (c : Fin 16) : idx_main_v5 (ix4 i j b c) = ix4 i (0 : Fin 1) b c :=
  funext fun a => Fin.ext (by match a with | ⟨0, _⟩ => rfl | ⟨1, _⟩ => rfl | ⟨2, _⟩ => rfl | ⟨3, _⟩ => rfl)

theorem idx_v6 (i j : Fin 512) (b : Fin 32) (c : Fin 16) : idx_main_v6 (ix4 i j b c) = ix4 (0 : Fin 1) j b c :=
  funext fun a => Fin.ext (by match a with | ⟨0, _⟩ => rfl | ⟨1, _⟩ => rfl | ⟨2, _⟩ => rfl | ⟨3, _⟩ => rfl)

theorem idx_v3 (i : Fin 512) (u : Fin 1) (b : Fin 32) (c : Fin 16) : idx_main_v3 (ix4 i u b c) = ix3 i b c :=
  funext fun a => Fin.ext (by match a with | ⟨0, _⟩ => rfl | ⟨1, _⟩ => rfl | ⟨2, _⟩ => rfl)

theorem idx_v4 (u : Fin 1) (j : Fin 512) (b : Fin 32) (c : Fin 16) : idx_main_v4 (ix4 u j b c) = ix3 j b c :=
  funext fun a => Fin.ext (by match a with | ⟨0, _⟩ => rfl | ⟨1, _⟩ => rfl | ⟨2, _⟩ => rfl)

theorem idx_v12 (i : Fin 512) (b : Fin 32) (j : Fin 512) : idx_main_v12 (ix2 i b) j = ix3 i j b :=
  funext fun a => Fin.ext (by match a with | ⟨0, _⟩ => rfl | ⟨1, _⟩ => rfl | ⟨2, _⟩ => rfl)

/-! ### The stages at coordinates -/

/-- The reshaped product at (n, b, c) is the specification's projected feature. -/
theorem ref_M (x : (⟨S512x512, .f32⟩ : BufTy).Contents (Elt Ideal)) (T : (⟨S512x32x16, .f32⟩ : BufTy).Contents (Elt Ideal))
    (n : Fin 512) (b : Fin 32) (c : Fin 16) :
    val_main_v2 (F := Ideal) x T (ix3 n b c) = Cert.Spec.M x T n b c := by
  rw [val_main_v2_apply, idx_v2, val_main_v1_apply]
  unfold Cert.Spec.M
  refine Finset.sum_congr rfl fun k _ => ?_
  rw [lidx_v1, ridx_v1, val_main_v0_apply, idx_v0]

/-- The sum over c of the absolute differences of rows i and j in group b is the specification's distance. -/
theorem ref_D (x : (⟨S512x512, .f32⟩ : BufTy).Contents (Elt Ideal)) (T : (⟨S512x32x16, .f32⟩ : BufTy).Contents (Elt Ideal))
    (i j : Fin 512) (b : Fin 32) :
    val_main_v9 (F := Ideal) x T (ix3 i j b) = Cert.Spec.D x T i j b := by
  rw [val_main_v9_apply, val_main_cst_apply, Ideal.ofBits_def, Ideal.ofBits_zero_f32, zero_add]
  unfold Cert.Spec.D
  refine Finset.sum_congr rfl fun c _ => ?_
  rw [idx_v9, val_main_v8_apply, val_main_v7_apply, val_main_v5_apply, val_main_v6_apply, idx_v5, idx_v6,
    val_main_v3_apply, val_main_v4_apply, idx_v3, idx_v4, ref_M, ref_M,
    Ideal.hostAbsf_def, Ideal.absf_def, Ideal.subf_def]

/-- The reference's 512 × 32 stage (the similarity totals less one), at row i and group b, is the specification's entry. -/
theorem ref_Oib (x : (⟨S512x512, .f32⟩ : BufTy).Contents (Elt Ideal)) (T : (⟨S512x32x16, .f32⟩ : BufTy).Contents (Elt Ideal))
    (i : Fin 512) (b : Fin 32) :
    val_main_v14 (F := Ideal) x T (ix2 i b) = Cert.Spec.Oib x T i b := by
  rw [val_main_v14_apply, val_main_v12_apply, val_main_v13_apply, val_main_cst_1_apply, val_main_cst_0_apply,
    Ideal.ofBits_def, Ideal.ofBits_def, Ideal.ofBits_zero_f32, zero_add, Ideal.subf_def]
  unfold Cert.Spec.Oib
  refine congrArg (· - Ideal.ofBits .f32 0x3F800000#32) (Finset.sum_congr rfl fun j _ => ?_)
  rw [idx_v12, val_main_v11_apply, val_main_v10_apply, ref_D, Ideal.hostUnary_exp_def, Ideal.hostNegf_def, Ideal.negf_def]

end Cert.RefValue

end
-- ==== Proof.lean ====
/-
  A Pallas kernel for minibatch discrimination against its jnp reference, over the extended reals.
  With x : 512 × 512 and T : 512 × 32 × 16, both programs return x with the 512 × 32 array
      O[i,b] = Σ_j exp(−Σ_c |M[i,b,c] − M[j,b,c]|) − 1,     M[n,b,c] = Σ_k x[n,k] · T[k,b,c]
  appended along the second axis. The reference computes M by one dot_general and the two sums by two host
  reductions. The kernel computes M by a matrix product on operands converted to a 16-bit format (the
  identity on extended reals), transposes it, and in a second call accumulates, for each tile of 256 rows i,
  over four tiles of 128 rows j, Σ_j exp(−dist) in a scratch buffer that is reset at the first tile and
  stored, less one, after the last; its distance is the sixteen |·| terms added one after another from zero.
  Only the grouping of sums differs, and addition on the extended reals is associative and commutative, so
  the finiteness of the inputs is never used.
  The frames: both kernel programs run their two calls through the pipeline's region rule, one segment per
  call between the stretches of host operations; the reference is a straight line of host operations.
-/
import proofs.«142550_j42949672961129_1_alg».proof.Defs
import proofs.«142550_j42949672961129_1_alg».proof.Proof.Gen.Kernel
import proofs.«142550_j42949672961129_1_alg».proof.Proof.Gen.KernelIdeal
import proofs.«142550_j42949672961129_1_alg».proof.Proof.Gen.ReferenceIdeal
import proofs.«142550_j42949672961129_1_alg».proof.Proof.Gen.Pre_finite_inputs
import proofs.«142550_j42949672961129_1_alg».proof.Proof.Gen.ReferenceIdeal.Run
import proofs.«142550_j42949672961129_1_alg».proof.Proof.Gen.ReferenceIdeal.Read
import proofs.«142550_j42949672961129_1_alg».proof.Proof.Kernel.Run
import proofs.«142550_j42949672961129_1_alg».proof.Proof.KernelIdeal.Run
import proofs.«142550_j42949672961129_1_alg».proof.Proof.KFinal
import proofs.«142550_j42949672961129_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel program runs, and its argument arrays end as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's 512 × 32 stage is the specification's array. -/
theorem ref_Oarr (x : (⟨Cert.ReferenceIdeal.S512x512, .f32⟩ : BufTy).Contents (Elt Ideal))
    (T : (⟨Cert.ReferenceIdeal.S512x32x16, .f32⟩ : BufTy).Contents (Elt Ideal)) :
    Cert.ReferenceIdeal.Read.val_main_v14 (F := Ideal) x T = Cert.Spec.Oarr x T := by
  funext p
  obtain ⟨i, b, rfl⟩ : ∃ (i : Fin 512) (b : Fin 32), p = ix2 i b := ⟨p 0, p 1, eq_ix2 p⟩
  exact Cert.RefValue.ref_Oib x T i b

/-- From memories agreeing on the arguments both idealized programs end with the same result: x with the
    specification's array appended. -/
theorem algebraic : Cert.algebraic_KernelIdeal_ReferenceIdeal := by
  intro m ρ m' ρ' _ hagree
  refine ⟨fun c => Cert.KernelIdeal.Hand.W5 (F := Ideal) m c (Proc.devRef .tc Cert.KernelIdeal.main_v8), ?_, ?_⟩
  · exact (θ_run Cert.KernelIdeal.defs _ _).mono (fun r h c =>
      ⟨h c _ (Cert.KernelIdeal.Hand.mem_uc Cert.KernelIdeal.main_v8 (by decide)),
        (h c _ (Cert.KernelIdeal.Hand.mem_uc Cert.KernelIdeal.main_arg0 (by decide))).trans (Cert.KernelIdeal.Hand.W5_arg0 m c),
        (h c _ (Cert.KernelIdeal.Hand.mem_uc Cert.KernelIdeal.main_arg1 (by decide))).trans (Cert.KernelIdeal.Hand.W5_arg1 m c)⟩)
      (Cert.KernelIdeal.Hand.run (F := Ideal) m ρ)
  · refine (θ_run Cert.ReferenceIdeal.defs _ _).mono (fun r h c => ⟨(h c).1.trans ?_, (h c).2⟩)
      (Cert.ReferenceIdeal.Value.run (F := Ideal) m' ρ')
    show _ = Cert.KernelIdeal.Hand.W5 (F := Ideal) m c (Proc.devRef .tc Cert.KernelIdeal.main_v8)
    rw [Cert.ReferenceIdeal.Read.val_main_v15_eq, (hagree c).1, (hagree c).2, Cert.KernelIdeal.HandValue.kernel_value m c]
    unfold Cert.ReferenceIdeal.Read.val_main_v15
    rw [ref_Oarr]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
